-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x1024 : Shape := ⟨3, ![128, 64, 1024]⟩
abbrev S32x1024x1024 : Shape := ⟨3, ![32, 1024, 1024]⟩
abbrev S32x1024 : Shape := ⟨2, ![32, 1024]⟩
abbrev S32x1024x1536 : Shape := ⟨3, ![32, 1024, 1536]⟩
abbrev S32x1536 : Shape := ⟨2, ![32, 1536]⟩
abbrev S128 : Shape := ⟨1, ![128]⟩
abbrev S_ : Shape := ⟨0, ![]⟩

class Facts : Prop where
  bcast_S_S128x64x1024 : S_.BroadcastsInDim S128x64x1024 (![] : Fin 0 → Fin S128x64x1024.rank)
  reducesTo_S128x64x1024_S_d0_1_2 : S128x64x1024.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S32x1024 : S_.BroadcastsInDim S32x1024 (![] : Fin 0 → Fin S32x1024.rank)
  reducesTo_S32x1024_S_d0_1 : S32x1024.ReducesTo [0, 1] S_
  bcast_S_S32x1024x1536 : S_.BroadcastsInDim S32x1024x1536 (![] : Fin 0 → Fin S32x1024x1536.rank)
  reducesTo_S32x1024x1536_S_d0_1_2 : S32x1024x1536.ReducesTo [0, 1, 2] S_
  bcast_S_S32x1536 : S_.BroadcastsInDim S32x1536 (![] : Fin 0 → Fin S32x1536.rank)
  reducesTo_S32x1536_S_d0_1 : S32x1536.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S32x1536 .f32) (main_arg5 : IVec S128 32) (main_v13 : IVec S_ 1) (main_v16 : IVec S32x1024x1536 1) : IVec S_ 1 :=
  let main_c_5 : IVec S_ 1 := constantI S_ 1 1#1
  let main_v17 : IVec S_ 1 := (fun x v => Host.reduce IntOp.andi x v reducesTo_S32x1024x1536_S_d0_1_2 h_S_) main_v16 main_c_5
  let main_v18 : IVec S_ 1 := andi main_v13 main_v17
  let main_v19 : FVec F S32x1536 .f32 := Host.absf main_arg4
  let main_cst_6 : FVec F S_ .f32 := constant S_ .f32 0x7F800000#32
  let main_v20 : FVec F S32x1536 .f32 := broadcastInDim S32x1536 ![] bcast_S_S32x1536 main_cst_6
  let main_v21 : IVec S32x1536 1 := cmpf .olt main_v19 main_v20
  let main_c_7 : IVec S_ 1 := constantI S_ 1 1#1
  let main_v22 : IVec S_ 1 := (fun x v => Host.reduce IntOp.andi x v reducesTo_S32x1536_S_d0_1 h_S_) main_v21 main_c_7
  let main_v23 : IVec S_ 1 := andi main_v18 main_v22
  let main_c_8 : IVec S_ 32 := constantI S_ 32 0#32
  let main_v24 : IVec S128 32 := broadcastInDim S128 ![] bcast_S_S128 main_c_8
  let main_v25 : IVec S128 1 := cmpi .sge main_arg5 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v23 main_v26
  let main_c_10 : IVec S_ 32 := constantI S_ 32 32#32
  let main_v28 : IVec S128 32 := broadcastInDim S128 ![] bcast_S_S128 main_c_10
  let main_v29 : IVec S128 1 := cmpi .slt main_arg5 main_v28
  let main_c_11 : IVec S_ 1 := constantI S_ 1 1#1
  let main_v30 : IVec S_ 1 := (fun x v => Host.reduce IntOp.andi x v reducesTo_S128_S_d0 h_S_) main_v29 main_c_11
  let main_v31 : IVec S_ 1 := andi main_v27 main_v30
  main_v31

def fn {F : FTy → Type} [FloatOps F] (main_arg0 : FVec F S128x64x1024 .f32) (main_arg1 : FVec F S32x1024x1024 .f32) (main_arg2 : FVec F S32x1024 .f32) (main_arg3 : FVec F S32x1024x1536 .f32) (main_arg4 : FVec F S32x1536 .f32) (main_arg5 : IVec S128 32) : IVec S_ 1 :=
  let main_v0 : FVec F S128x64x1024 .f32 := Host.absf main_arg0
  let main_cst : FVec F S_ .f32 := constant S_ .f32 0x7F800000#32
  let main_v1 : FVec F S128x64x1024 .f32 := broadcastInDim S128x64x1024 ![] bcast_S_S128x64x1024 main_cst
  let main_v2 : IVec S128x64x1024 1 := cmpf .olt main_v0 main_v1
  let main_c : IVec S_ 1 := constantI S_ 1 1#1
  let main_v3 : IVec S_ 1 := (fun x v => Host.reduce IntOp.andi x v reducesTo_S128x64x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S32x1024 .f32 := Host.absf main_arg2
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_v14 : FVec F S32x1024x1536 .f32 := Host.absf main_arg3
  let main_cst_4 : FVec F S_ .f32 := constant S_ .f32 0x7F800000#32
  let main_v15 : FVec F S32x1024x1536 .f32 := broadcastInDim S32x1024x1536 ![] bcast_S_S32x1024x1536 main_cst_4
  let main_v16 : IVec S32x1024x1536 1 := cmpf .olt main_v14 main_v15
  fn_part1 (F := F) main_arg4 main_arg5 main_v13 main_v16
-- ==== Kernel.lean ====
abbrev S128x64x1024 : Shape := ⟨3, ![128, 64, 1024]⟩
abbrev S32x1024x1024 : Shape := ⟨3, ![32, 1024, 1024]⟩
abbrev S32x1024 : Shape := ⟨2, ![32, 1024]⟩
abbrev S32x1024x1536 : Shape := ⟨3, ![32, 1024, 1536]⟩
abbrev S32x1536 : Shape := ⟨2, ![32, 1536]⟩
abbrev S128 : Shape := ⟨1, ![128]⟩
abbrev S_ : Shape := ⟨0, ![]⟩
abbrev S128x1 : Shape := ⟨2, ![128, 1]⟩
abbrev S32x1x1024 : Shape := ⟨3, ![32, 1, 1024]⟩
abbrev S32x1x1536 : Shape := ⟨3, ![32, 1, 1536]⟩
abbrev S128x64x1536 : Shape := ⟨3, ![128, 64, 1536]⟩
abbrev S1x64x1024 : Shape := ⟨3, ![1, 64, 1024]⟩
abbrev S1 : Shape := ⟨1, ![1]⟩
abbrev S1x1024x1024 : Shape := ⟨3, ![1, 1024, 1024]⟩
abbrev S1x1x1024 : Shape := ⟨3, ![1, 1, 1024]⟩
abbrev S1x1024x1536 : Shape := ⟨3, ![1, 1024, 1536]⟩
abbrev S1x1x1536 : Shape := ⟨3, ![1, 1, 1536]⟩
abbrev S1x64x1536 : Shape := ⟨3, ![1, 64, 1536]⟩
abbrev S64x1024 : Shape := ⟨2, ![64, 1024]⟩
abbrev S1024x1024 : Shape := ⟨2, ![1024, 1024]⟩
abbrev S1024 : Shape := ⟨1, ![1024]⟩
abbrev S1x1024 : Shape := ⟨2, ![1, 1024]⟩
abbrev S1024x1536 : Shape := ⟨2, ![1024, 1536]⟩
abbrev S64x1536 : Shape := ⟨2, ![64, 1536]⟩
abbrev S1536 : Shape := ⟨1, ![1536]⟩
abbrev S1x1536 : Shape := ⟨2, ![1, 1536]⟩

abbrev nBuf : Space → Nat
  | .hbm => 27
  | .vmem => 12
  | .smem => 2
  | _ => 0

abbrev bufTy : (tb : Table) → Fin (tcTables nBuf tb) → BufTy
  | .hbm, ⟨0, _⟩ => ⟨S128x64x1024, .f32⟩
  | .hbm, ⟨1, _⟩ => ⟨S32x1024x1024, .f32⟩
  | .hbm, ⟨2, _⟩ => ⟨S32x1024, .f32⟩
  | .hbm, ⟨3, _⟩ => ⟨S32x1024x1536, .f32⟩
  | .hbm, ⟨4, _⟩ => ⟨S32x1536, .f32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S128x1, .i32⟩
  | .hbm, ⟨24, _⟩ => ⟨S32x1x1024, .f32⟩
  | .hbm, ⟨25, _⟩ => ⟨S32x1x1536, .f32⟩
  | .hbm, ⟨26, _⟩ => ⟨S128x64x1536, .f32⟩
  | .local _ .vmem, ⟨0, _⟩ => ⟨S1x64x1024, .f32⟩
  | .local _ .vmem, ⟨1, _⟩ => ⟨S1x64x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1536, .f32⟩
  | .local _ .vmem, ⟨7, _⟩ => ⟨S1x1024x1536, .f32⟩
  | .local _ .vmem, ⟨8, _⟩ => ⟨S1x1x1536, .f32⟩
  | .local _ .vmem, ⟨9, _⟩ => ⟨S1x1x1536, .f32⟩
  | .local _ .vmem, ⟨10, _⟩ => ⟨S1x64x1536, .f32⟩
  | .local _ .vmem, ⟨11, _⟩ => ⟨S1x64x1536, .f32⟩
  | .local _ .smem, ⟨0, _⟩ => ⟨S128, .i32⟩
  | .local _ .smem, ⟨1, _⟩ => ⟨S128, .i32⟩
  | _, _ => ⟨S128x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_call1_v0 : Ref sig .tc := ⟨.hbm, 14, rfl⟩
abbrev main_call1_v1_0 : Ref sig .tc := ⟨.hbm, 15, rfl⟩
abbrev main_c_1 : Ref sig .tc := ⟨.hbm, 16, rfl⟩
abbrev main_v2 : Ref sig .tc := ⟨.hbm, 17, rfl⟩
abbrev main_v3 : Ref sig .tc := ⟨.hbm, 18, rfl⟩
abbrev main_c_2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v1 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

abbrev pre0 : Pipeline.Prefetch sig := ⟨2, ![main_v1.idx, main_v8.idx], fun | 0 => main_v1.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S128 : S_.BroadcastsInDim S128 (![] : Fin 0 → Fin S128.rank)
  bcast_S128_S128x1_0 : S128.BroadcastsInDim S128x1 (![0] : Fin 1 → Fin S128x1.rank)
  shapeCasts_S32x1024_S32x1x1024 : S32x1024.ShapeCasts S32x1x1024
  shapeCasts_S32x1536_S32x1x1536 : S32x1536.ShapeCasts S32x1x1536
  numel1_S1 : S1.numel = 1
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S64x1024 : S1x1024.Broadcasts S64x1024
  inb_S1x1024x1536_S1x1024x1536_0_0_0 : ∀ a, (![0, 0, 0] : Fin 3 → Nat) a + S1x1024x1536.size a ≤ S1x1024x1536.size a
  h_S1x1024x1536 : 0 < S1x1024x1536.numel
  shapeCasts_S1x1024x1536_S1024x1536 : S1x1024x1536.ShapeCasts S1024x1536
  inb_S1x1x1536_S1x1x1536_0_0_0 : ∀ a, (![0, 0, 0] : Fin 3 → Nat) a + S1x1x1536.size a ≤ S1x1x1536.size a
  h_S1x1x1536 : 0 < S1x1x1536.numel
  shapeCasts_S1x1x1536_S1536 : S1x1x1536.ShapeCasts S1536
  shapeCasts_S1536_S1x1536 : S1536.ShapeCasts S1x1536
  broadcasts_S1x1536_S64x1536 : S1x1536.Broadcasts S64x1536
  inb_S1x64x1536_S1x64x1536_0_0_0 : ∀ a, (![0, 0, 0] : Fin 3 → Nat) a + S1x64x1536.size a ≤ S1x64x1536.size a
  h_S1x64x1536 : 0 < S1x64x1536.numel
  shapeCasts_S1x64x1536_S64x1536 : S1x64x1536.ShapeCasts S64x1536
  shapeCasts_S64x1536_S1x64x1536 : S64x1536.ShapeCasts S1x64x1536
  gather_S128_S128x1_S128_n_0_n_n_0_1_1_wf : GatherDims.WF S128 S128x1 S128 [] [0] [] [0] [] 1 ![1]
  dot_S64x1024_S1024x1024_S64x1024_1_0_0_1_n_n_wf : DotDims.WF S64x1024 S1024x1024 S64x1024 [1] [0] [0] [1] [] []
  dot_S64x1024_S1024x1536_S64x1536_1_0_0_1_n_n_wf : DotDims.WF S64x1024 S1024x1536 S64x1536 [1] [0] [0] [1] [] []
  hrank0 : 0 < grid0.rank
  k0_off1_inb : ∀ i : grid0.Coords, ∀ a, (k0_off1 i) a + S1.size a ≤ S128.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S128_S128x1_S128_n_0_n_n_0_1_1 : GatherDims S128 S128x1 S128 where
  offsetDims := []
  collapsedSliceDims := [0]
  operandBatchingDims := []
  startIndicesBatchingDims := []
  startIndexMap := [0]
  indexVectorDim := 1
  sliceSizes := ![1]
  wf := gather_S128_S128x1_S128_n_0_n_n_0_1_1_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x1024_S1024x1536_S64x1536_1_0_0_1_n_n : DotDims S64x1024 S1024x1536 S64x1536 where
  lhsContracting := [1]
  rhsContracting := [0]
  lhsNonContracting := [0]
  rhsNonContracting := [1]
  lhsBatch := []
  rhsBatch := []
  wf := dot_S64x1024_S1024x1536_S64x1536_1_0_0_1_n_n_wf

abbrev spec0_0 : Pipeline.WinSpec sig grid0.rank :=
  Pipeline.WinSpec.ofSpec (Memref.whole main_arg0) S1x64x1024.size reads0_0 false false 2 stage0_0 sem0_0 nbuf0_0 hstage0_0

abbrev spec0_1 : Pipeline.WinSpec sig grid0.rank :=
  Pipeline.WinSpec.ofSpec (Memref.whole main_arg1) S1x1024x1024.size reads0_1 false false 2 stage0_1 sem0_1 nbuf0_1 hstage0_1

abbrev spec0_2 : Pipeline.WinSpec sig grid0.rank :=
  Pipeline.WinSpec.ofSpec (Memref.whole main_v9) S1x1x1024.size reads0_2 false false 2 stage0_2 sem0_2 nbuf0_2 hstage0_2

abbrev spec0_3 : Pipeline.WinSpec sig grid0.rank :=
  Pipeline.WinSpec.ofSpec (Memref.whole main_arg3) S1x1024x1536.size reads0_3 false false 2 stage0_3 sem0_3 nbuf0_3 hstage0_3

abbrev spec0_4 : Pipeline.WinSpec sig grid0.rank :=
  Pipeline.WinSpec.ofSpec (Memref.whole main_v10) S1x1x1536.size reads0_4 false false 2 stage0_4 sem0_4 nbuf0_4 hstage0_4

abbrev spec0_5 : Pipeline.WinSpec sig grid0.rank :=
  Pipeline.WinSpec.ofSpec (Memref.whole main_v11) S1x64x1536.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | 5 => hreads0_5 pf | ⟨_ + 6, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x64x1024.size a ≤ S128x64x1024.size a), EltTy.bits .f32 = 32 ∨ (Rect.block (s := S128x64x1024) S1x64x1024.size (cc0_transform_0 k0_off1_inb numel1_S1 pf i) h).WholeWords (EltTy.packing .f32)) ∧
  (∀ i : grid0.Coords, ∃ h : (∀ a, (cc0_transform_1 k0_off1_inb numel1_S1 pf i a + 1) * S1x1024x1024.size a ≤ S32x1024x1024.size a), EltTy.bits .f32 = 32 ∨ (Rect.block (s := S32x1024x1024) S1x1024x1024.size (cc0_transform_1 k0_off1_inb numel1_S1 pf i) h).WholeWords (EltTy.packing .f32)) ∧
  (∀ i : grid0.Coords, ∃ h : (∀ a, (cc0_transform_2 k0_off1_inb numel1_S1 pf i a + 1) * S1x1x1024.size a ≤ S32x1x1024.size a), EltTy.bits .f32 = 32 ∨ (Rect.block (s := S32x1x1024) S1x1x1024.size (cc0_transform_2 k0_off1_inb numel1_S1 pf i) h).WholeWords (EltTy.packing .f32)) ∧
  (∀ i : grid0.Coords, ∃ h : (∀ a, (cc0_transform_3 k0_off1_inb numel1_S1 pf i a + 1) * S1x1024x1536.size a ≤ S32x1024x1536.size a), EltTy.bits .f32 = 32 ∨ (Rect.block (s := S32x1024x1536) S1x1024x1536.size (cc0_transform_3 k0_off1_inb numel1_S1 pf i) h).WholeWords (EltTy.packing .f32)) ∧
  (∀ i : grid0.Coords, ∃ h : (∀ a, (cc0_transform_4 k0_off1_inb numel1_S1 pf i a + 1) * S1x1x1536.size a ≤ S32x1x1536.size a), EltTy.bits .f32 = 32 ∨ (Rect.block (s := S32x1x1536) S1x1x1536.size (cc0_transform_4 k0_off1_inb numel1_S1 pf i) h).WholeWords (EltTy.packing .f32)) ∧
  (∀ i : grid0.Coords, ∃ h : (∀ a, (cc0_transform_5 k0_off1_inb numel1_S1 pf i a + 1) * S1x64x1536.size a ≤ S128x64x1536.size a), EltTy.bits .f32 = 32 ∨ (Rect.block (s := S128x64x1536) S1x64x1536.size (cc0_transform_5 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2 i).elim fun h _ => h a | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2 i).elim fun _ h => h | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S128x64x1024 : Shape := ⟨3, ![128, 64, 1024]⟩
abbrev S32x1024x1024 : Shape := ⟨3, ![32, 1024, 1024]⟩
abbrev S32x1024 : Shape := ⟨2, ![32, 1024]⟩
abbrev S32x1024x1536 : Shape := ⟨3, ![32, 1024, 1536]⟩
abbrev S32x1536 : Shape := ⟨2, ![32, 1536]⟩
abbrev S128 : Shape := ⟨1, ![128]⟩
abbrev S_ : Shape := ⟨0, ![]⟩
abbrev S128x1 : Shape := ⟨2, ![128, 1]⟩
abbrev S128x1024x1024 : Shape := ⟨3, ![128, 1024, 1024]⟩
abbrev S128x1024 : Shape := ⟨2, ![128, 1024]⟩
abbrev S128x1x1024 : Shape := ⟨3, ![128, 1, 1024]⟩
abbrev S128x1024x1536 : Shape := ⟨3, ![128, 1024, 1536]⟩
abbrev S128x64x1536 : Shape := ⟨3, ![128, 64, 1536]⟩
abbrev S128x1536 : Shape := ⟨2, ![128, 1536]⟩
abbrev S128x1x1536 : Shape := ⟨3, ![128, 1, 1536]⟩

abbrev nBuf : Space → Nat
  | .hbm => 53
  | .vmem => 0
  | .smem => 0
  | _ => 0

abbrev bufTy : (tb : Table) → Fin (tcTables nBuf tb) → BufTy
  | .hbm, ⟨0, _⟩ => ⟨S128x64x1024, .f32⟩
  | .hbm, ⟨1, _⟩ => ⟨S32x1024x1024, .f32⟩
  | .hbm, ⟨2, _⟩ => ⟨S32x1024, .f32⟩
  | .hbm, ⟨3, _⟩ => ⟨S32x1024x1536, .f32⟩
  | .hbm, ⟨4, _⟩ => ⟨S32x1536, .f32⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S128x1024x1024, .f32⟩
  | .hbm, ⟨15, _⟩ => ⟨S128x64x1024, .f32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S128x1, .i32⟩
  | .hbm, ⟨24, _⟩ => ⟨S128x1024, .f32⟩
  | .hbm, ⟨25, _⟩ => ⟨S128x1x1024, .f32⟩
  | .hbm, ⟨26, _⟩ => ⟨S128x64x1024, .f32⟩
  | .hbm, ⟨27, _⟩ => ⟨S128x64x1024, .f32⟩
  | .hbm, ⟨28, _⟩ => ⟨S_, .f32⟩
  | .hbm, ⟨29, _⟩ => ⟨S128x64x1024, .f32⟩
  | .hbm, ⟨30, _⟩ => ⟨S128x64x1024, .f32⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S128x1, .i32⟩
  | .hbm, ⟨39, _⟩ => ⟨S128x1024x1536, .f32⟩
  | .hbm, ⟨40, _⟩ => ⟨S128x64x1536, .f32⟩
  | .hbm, ⟨41, _⟩ => ⟨S_, .i32⟩
  | .hbm, ⟨42, _⟩ => ⟨S128, .i32⟩
  | .hbm, ⟨43, _⟩ => ⟨S128, .i1⟩
  | .hbm, ⟨44, _⟩ => ⟨S_, .i32⟩
  | .hbm, ⟨45, _⟩ => ⟨S128, .i32⟩
  | .hbm, ⟨46, _⟩ => ⟨S128, .i32⟩
  | .hbm, ⟨47, _⟩ => ⟨S128, .i32⟩
  | .hbm, ⟨48, _⟩ => ⟨S128x1, .i32⟩
  | .hbm, ⟨49, _⟩ => ⟨S128x1536, .f32⟩
  | .hbm, ⟨50, _⟩ => ⟨S128x1x1536, .f32⟩
  | .hbm, ⟨51, _⟩ => ⟨S128x64x1536, .f32⟩
  | .hbm, ⟨52, _⟩ => ⟨S128x64x1536, .f32⟩
  | _, _ => ⟨S128x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128x1024_S128x1x1024_0_2 : S128x1024.BroadcastsInDim S128x1x1024 (![0, 2] : Fin 2 → Fin S128x1x1024.rank)
  bcast_S128x1x1024_S128x64x1024_0_1_2 : S128x1x1024.BroadcastsInDim S128x64x1024 (![0, 1, 2] : Fin 3 → Fin S128x64x1024.rank)
  bcast_S_S128x64x1024 : S_.BroadcastsInDim S128x64x1024 (![] : Fin 0 → Fin S128x64x1024.rank)
  bcast_S128x1536_S128x1x1536_0_2 : S128x1536.BroadcastsInDim S128x1x1536 (![0, 2] : Fin 2 → Fin S128x1x1536.rank)
  bcast_S128x1x1536_S128x64x1536_0_1_2 : S128x1x1536.BroadcastsInDim S128x64x1536 (![0, 1, 2] : Fin 3 → Fin S128x64x1536.rank)
  gather_S32x1024x1024_S128x1_S128x1024x1024_12_0_n_n_0_1_110241024_wf : GatherDims.WF S32x1024x1024 S128x1 S128x1024x1024 [1, 2] [0] [] [0] [] 1 ![1, 1024, 1024]
  dot_S128x64x1024_S128x1024x1024_S128x64x1024_2_1_1_2_0_0_wf : DotDims.WF S128x64x1024 S128x1024x1024 S128x64x1024 [2] [1] [1] [2] [0] [0]
  gather_S32x1024_S128x1_S128x1024_1_0_n_n_0_1_11024_wf : GatherDims.WF S32x1024 S128x1 S128x1024 [1] [0] [] [0] [] 1 ![1, 1024]
  gather_S32x1024x1536_S128x1_S128x1024x1536_12_0_n_n_0_1_110241536_wf : GatherDims.WF S32x1024x1536 S128x1 S128x1024x1536 [1, 2] [0] [] [0] [] 1 ![1, 1024, 1536]
  dot_S128x64x1024_S128x1024x1536_S128x64x1536_2_1_1_2_0_0_wf : DotDims.WF S128x64x1024 S128x1024x1536 S128x64x1536 [2] [1] [1] [2] [0] [0]
  gather_S32x1536_S128x1_S128x1536_1_0_n_n_0_1_11536_wf : GatherDims.WF S32x1536 S128x1 S128x1536 [1] [0] [] [0] [] 1 ![1, 1536]

variable [Facts₀]

def gather_S32x1024x1024_S128x1_S128x1024x1024_12_0_n_n_0_1_110241024 : GatherDims S32x1024x1024 S128x1 S128x1024x1024 where
  offsetDims := [1, 2]
  collapsedSliceDims := [0]
  operandBatchingDims := []
  startIndicesBatchingDims := []
  startIndexMap := [0]
  indexVectorDim := 1
  sliceSizes := ![1, 1024, 1024]
  wf := gather_S32x1024x1024_S128x1_S128x1024x1024_12_0_n_n_0_1_110241024_wf
def dot_S128x64x1024_S128x1024x1024_S128x64x1024_2_1_1_2_0_0 : DotDims S128x64x1024 S128x1024x1024 S128x64x1024 where
  lhsContracting := [2]
  rhsContracting := [1]
  lhsNonContracting := [1]
  rhsNonContracting := [2]
  lhsBatch := [0]
  rhsBatch := [0]
  wf := dot_S128x64x1024_S128x1024x1024_S128x64x1024_2_1_1_2_0_0_wf
def gather_S32x1024_S128x1_S128x1024_1_0_n_n_0_1_11024 : GatherDims S32x1024 S128x1 S128x1024 where
  offsetDims := [1]
  collapsedSliceDims := [0]
  operandBatchingDims := []
  startIndicesBatchingDims := []
  startIndexMap := [0]
  indexVectorDim := 1
  sliceSizes := ![1, 1024]
  wf := gather_S32x1024_S128x1_S128x1024_1_0_n_n_0_1_11024_wf
def gather_S32x1024x1536_S128x1_S128x1024x1536_12_0_n_n_0_1_110241536 : GatherDims S32x1024x1536 S128x1 S128x1024x1536 where
  offsetDims := [1, 2]
  collapsedSliceDims := [0]
  operandBatchingDims := []
  startIndicesBatchingDims := []
  startIndexMap := [0]
  indexVectorDim := 1
  sliceSizes := ![1, 1024, 1536]
  wf := gather_S32x1024x1536_S128x1_S128x1024x1536_12_0_n_n_0_1_110241536_wf
def dot_S128x64x1024_S128x1024x1536_S128x64x1536_2_1_1_2_0_0 : DotDims S128x64x1024 S128x1024x1536 S128x64x1536 where
  lhsContracting := [2]
  rhsContracting := [1]
  lhsNonContracting := [1]
  rhsNonContracting := [2]
  lhsBatch := [0]
  rhsBatch := [0]
  wf := dot_S128x64x1024_S128x1024x1536_S128x64x1536_2_1_1_2_0_0_wf
def gather_S32x1536_S128x1_S128x1536_1_0_n_n_0_1_11536 : GatherDims S32x1536 S128x1 S128x1536 where
  offsetDims := [1]
  collapsedSliceDims := [0]
  operandBatchingDims := []
  startIndicesBatchingDims := []
  startIndexMap := [0]
  indexVectorDim := 1
  sliceSizes := ![1, 1536]
  wf := gather_S32x1536_S128x1_S128x1536_1_0_n_n_0_1_11536_wf

class Facts : Prop extends Facts₀ where

variable [Facts]
-- ==== Proof.PreRange.lean ====
/-
  What the precondition says of the category words.

  The precondition is a conjunction of seven tests, each a "for all entries" reduced to one bit: the five float arrays
  are finite, every category word is at least 0 as a signed number, and every category word is below 32 as a signed
  number. From the last two: a word that is at least 0 and below 32 as a signed 32-bit number is, read unsigned, a
  natural number below 32.
-/
import proofs.«403329_j46205258170745_2_alg».proof.Pre_finite_inputs
import Idealize.ShloMosaic.Lib.ReduceAll
import Idealize.ShloMosaic.Lib.Affine
import Idealize.ShloMosaic.Lib.StableHlo.Predicate
import Idealize.ShloMosaic.Lib.ValueIdx

noncomputable section

namespace Cert.PreRange

open Idealize.ShloMosaic Idealize.ShloMosaic.ValueIdx Cert.Pre_finite_inputs

/-- A 32-bit word that is at least 0 and below 32 as a signed number is below 32 as an unsigned one. -/
theorem small_of_signed (w : BitVec 32) (h0 : IntOp.cmpi .sge w 0#32 = 1#1) (h1 : IntOp.cmpi .slt w 32#32 = 1#1) :
    w.toNat < 32 := by
  have h0' : BitVec.ofBool ((0#32 : BitVec 32).sle w) = 1#1 := h0
  have h1' : BitVec.ofBool (w.slt (32#32 : BitVec 32)) = 1#1 := h1
  rw [StableHlo.Predicate.ofBool_eq_one_iff] at h0' h1'
  simp only [BitVec.sle, BitVec.slt, decide_eq_true_eq] at h0' h1'
  have z : (0#32 : BitVec 32).toInt = 0 := by decide
  have t : (32#32 : BitVec 32).toInt = 32 := by decide
  rw [z] at h0'
  rw [t] at h1'
  have e := BitVec.toInt_eq_toNat_cond w
  have hw := w.isLt
  split at e <;> omega

instance : Subsingleton S_.Idx := ⟨fun a b => funext fun d => d.elim0⟩

variable {F : FTy → Type} [FloatOps F] [Cert.Pre_finite_inputs.Facts]

/-- Under the precondition every category word, read unsigned, is below 32. -/
theorem cat_lt (a0 : FVec F S128x64x1024 .f32) (a1 : FVec F S32x1024x1024 .f32) (a2 : FVec F S32x1024 .f32)
    (a3 : FVec F S32x1024x1536 .f32) (a4 : FVec F S32x1536 .f32) (a5 : IVec S128 32)
    (h : Cert.Pre_finite_inputs.fn (F := F) a0 a1 a2 a3 a4 a5 = fun _ => 1#1) (s : Fin 128) :
    (a5 (ix1 s)).toNat < 32 := by
  have h0 := congrFun h ix0
  unfold Cert.Pre_finite_inputs.fn at h0
  dsimp only at h0
  unfold Cert.Pre_finite_inputs.fn_part1 at h0
  dsimp only at h0
  obtain ⟨h27, h30⟩ := IntOp.andi_eq_one.mp h0
  obtain ⟨-, h26⟩ := IntOp.andi_eq_one.mp h27
  have hge := Host.reduce_andi_all _ _ _ _ ix0 h26 (ix1 s)
  have hlt := Host.reduce_andi_all _ _ _ _ ix0 h30 (ix1 s)
  exact small_of_signed _ hge hlt

end Cert.PreRange

end
-- ==== Proof.LibArgsort.lean ====
/-
  jnp's argsort of a vector, read entry by entry.

  `jnp.argsort(x)` prints as a `stablehlo.sort` of two operands along the one axis — the keys `x` and an `iota` of position
  words — of which the second result is returned. The sort moves both operands by ONE self-map of the positions (the
  stable sorting permutation under the comparator), so entry `k` of the result is the word of the position that lands
  at `k`. That self-map is a bijection: every entry is a position of the vector, and every position is some entry.
-/
import Idealize.ShloMosaic.Lib.SortFacts

noncomputable section

namespace Idealize.ShloMosaic.Argsort

open Idealize.ShloMosaic

variable {α : Type} {n w : Nat}

/-- The position whose key the argsort puts at `k`: the stable sorting permutation of the (key, position word) pairs
    under the comparator. -/
def src (cmp : α × BitVec w → α × BitVec w → BitVec 1) (x : (⟨1, ![n]⟩ : Shape).Idx → α) (k : Fin n) : Fin n :=
  sortedFrom (fun a b => cmp (x (Shape.Idx.ofFin a), BitVec.ofNat w a.val) (x (Shape.Idx.ofFin b), BitVec.ofNat w b.val) == 1#1) k

/-- Entry `k` of the argsort is the word of the position that lands at `k`. -/
theorem argsort_apply (cmp : α × BitVec w → α × BitVec w → BitVec 1) (x : (⟨1, ![n]⟩ : Shape).Idx → α) (k : Fin n) :
    (Host.sort2 ⟨1, ![n]⟩ 0 cmp x (iotaInDim ⟨1, ![n]⟩ w 0)).2 (Shape.Idx.ofFin k) = BitVec.ofNat w (src cmp x k).val := by
  unfold Host.sort2 src
  simp [iotaInDim]

/-- The keys the argsort's sort returns beside it: entry `k` is the key at the position that lands at `k`. -/
theorem sorted_keys_apply (cmp : α × BitVec w → α × BitVec w → BitVec 1) (x : (⟨1, ![n]⟩ : Shape).Idx → α) (k : Fin n) :
    (Host.sort2 ⟨1, ![n]⟩ 0 cmp x (iotaInDim ⟨1, ![n]⟩ w 0)).1 (Shape.Idx.ofFin k) = x (Shape.Idx.ofFin (src cmp x k)) := by
  unfold Host.sort2 src
  simp [iotaInDim]

/-- No position lands twice, -/
theorem src_injective (cmp : α × BitVec w → α × BitVec w → BitVec 1) (x : (⟨1, ![n]⟩ : Shape).Idx → α) :
    Function.Injective (src cmp x) := sortedFrom_injective _

/-- and every position lands somewhere. -/
theorem src_surjective (cmp : α × BitVec w → α × BitVec w → BitVec 1) (x : (⟨1, ![n]⟩ : Shape).Idx → α) :
    Function.Surjective (src cmp x) := sortedFrom_surjective _

/-- Every entry of the argsort, as a natural number, is a position of the vector (the position words do not wrap). -/
theorem argsort_toNat (hn : n ≤ 2 ^ w) (cmp : α × BitVec w → α × BitVec w → BitVec 1) (x : (⟨1, ![n]⟩ : Shape).Idx → α)
    (k : Fin n) :
    ((Host.sort2 ⟨1, ![n]⟩ 0 cmp x (iotaInDim ⟨1, ![n]⟩ w 0)).2 (Shape.Idx.ofFin k)).toNat = (src cmp x k).val := by
  rw [argsort_apply, BitVec.toNat_ofNat, Nat.mod_eq_of_lt (lt_of_lt_of_le (src cmp x k).isLt hn)]

/-- Every position `r` is the entry of the argsort at some `k`. -/
theorem argsort_onto (hn : n ≤ 2 ^ w) (cmp : α × BitVec w → α × BitVec w → BitVec 1) (x : (⟨1, ![n]⟩ : Shape).Idx → α)
    (r : Fin n) :
    ∃ k : Fin n, ((Host.sort2 ⟨1, ![n]⟩ 0 cmp x (iotaInDim ⟨1, ![n]⟩ w 0)).2 (Shape.Idx.ofFin k)).toNat = r.val := by
  obtain ⟨k, hk⟩ := src_surjective cmp x r
  exact ⟨k, by rw [argsort_toNat hn, hk]⟩

end Idealize.ShloMosaic.Argsort

end
-- ==== Proof.TablesIdeal.lean ====
/-
  The two tables the launch computes before its one grid: the stable argsort of the clipped category words, and the
  clipped categories read through that argsort. Entry by entry: entry `b` of the first is the sample `src b` that the
  sorted walk visits at point `b` (a bijection of the 128 samples), and, when every category word is below 32, entry
  `b` of the second is the category of that sample. From these, each of the six index maps at a grid point is the
  block (sample, 0, 0) or (category of the sample, 0, 0), and every such block lies inside its array.
-/
import proofs.«403329_j46205258170745_2_alg».proof.Proof.Gen.KernelIdeal.Frame
import proofs.«403329_j46205258170745_2_alg».proof.Proof.LibArgsort
import Idealize.ShloMosaic.Lib.StableHlo.Predicate
import Idealize.ShloMosaic.Lib.StableHlo.Run
import Idealize.ShloMosaic.Lib.ValueIdx

set_option maxRecDepth 16384

noncomputable section

namespace Cert.KernelIdeal.Tables

open Cert.KernelIdeal Cert.KernelIdeal.Gen
open Idealize.ShloMosaic Idealize.ShloMosaic.TcCoe Idealize.SL.Sem
open Idealize.ShloMosaic.ValueIdx Idealize.ShloMosaic.StableHlo

/-! ## Words -/

/-- The two spellings of the rank-1 index at `k` agree. -/
theorem ofFin_eq_ix1 {n : Nat} (k : Fin n) : (Shape.Idx.ofFin k : (⟨1, ![n]⟩ : Shape).Idx) = ix1 k := by
  funext a
  match a with
  | ⟨0, _⟩ => exact Fin.ext rfl

/-- Clipping to [0, 31] leaves a word below 32 as it is. -/
theorem clip_id (c : BitVec 32) (h : c.toNat < 32) : IntOp.minsi 31#32 (IntOp.maxsi 0#32 c) = c := by
  have hc : c.toInt = c.toNat := Predicate.toInt_eq_toNat_of_lt (by omega)
  have h0 : (0#32 : BitVec 32).toInt = 0 := by decide
  have h31 : (31#32 : BitVec 32).toInt = 31 := by decide
  have hmax : IntOp.maxsi 0#32 c = c := by
    unfold IntOp.maxsi
    rw [if_neg]
    simp only [BitVec.slt, hc, h0, decide_eq_true_eq]; omega
  rw [hmax]
  unfold IntOp.minsi
  rw [if_neg]
  simp only [BitVec.slt, hc, h31, decide_eq_true_eq]; omega

/-- Wrapping a negative position by 128 does nothing to a position word: it is not negative. -/
theorem sel_nonneg (w : BitVec 32) (h : w.toNat < 128) :
    Scalar.select (IntOp.cmpi .slt w 0#32) (IntOp.addi w 128#32) w = w := by
  have hc : w.toInt = w.toNat := Predicate.toInt_eq_toNat_of_lt (by omega)
  have h0 : (0#32 : BitVec 32).toInt = 0 := by decide
  have e : IntOp.cmpi .slt w 0#32 = 0#1 := by
    unfold IntOp.cmpi
    have : w.slt 0#32 = false := by
      simp only [BitVec.slt, hc, h0, decide_eq_false_iff_not]; omega
    rw [this]; rfl
  rw [e]
  unfold Scalar.select
  rw [if_neg (by decide)]

/-- A position word read signed and clamped into the 128 positions is itself. -/
theorem take_pos (w : BitVec 32) (h : w.toNat < 128) : min w.toInt.toNat (128 - 1) = w.toNat := by
  have hc : w.toInt = w.toNat := Predicate.toInt_eq_toNat_of_lt (by omega)
  rw [hc]; simp; omega

variable {F : FTy → Type} [FloatOps F]
variable (m : (ℓ : Loc nD τ sig) → Buf (Elt F) ℓ)

/-! ## The tables as terms of the category words -/

/-- the category words the program is launched with -/
abbrev catw : IVec S128 32 := m (((0 : Dev nD).tc : Thread nD τ).loc main_arg5)

/-- Every category word, read unsigned, is below the number of experts. -/
def InRange : Prop := ∀ s : Fin 128, (catw m (ix1 s)).toNat < 32

/-- The category words clipped to the 32 experts, as the launch computes them. -/
def clipped : IVec S128 32 :=
  minsi (broadcastInDim S128 ![] Gen.bcast_S_S128 (id (constantI S_ 32 31#32)))
    (maxsi (broadcastInDim S128 ![] Gen.bcast_S_S128 (id (constantI S_ 32 0#32))) (catw m))

/-- The first table: the stable argsort of the clipped words. -/
def orderTbl : IVec S128 32 :=
  (Host.sort2 S128 0 comparator_i32_i32_d0 (clipped m) (iotaInDim S128 32 0)).2

/-- The positions the second table is read at: the first table with a negative entry wrapped by 128, as a column. -/
def wrapped : IVec S128x1 32 :=
  broadcastInDim S128x1 ![0] Gen.bcast_S128_S128x1_0
    (select (cmpi .slt (orderTbl m) (broadcastInDim S128 ![] Gen.bcast_S_S128 (constantI S_ 32 0#32)))
      (addi (orderTbl m) (broadcastInDim S128 ![] Gen.bcast_S_S128 (constantI S_ 32 128#32))) (orderTbl m))

/-- The second table: the clipped words taken at those positions. -/
def scatTbl : IVec S128 32 :=
  Host.gather gather_S128_S128x1_S128_n_0_n_n_0_1_1 (clipped m) (wrapped m)

/-- The first table holds the argsort. -/
theorem tbl0_eq : (tbl m 0 : IVec S128 32) = orderTbl m := by
  unfold tbl
  show V m 0 main_v1 = _
  dsimp only [V]
  simp only [hostOps0, hostOps0_1, hostOps0_2, hostOps0_3, List.flatten_cons, List.flatten_nil, List.append_nil, List.cons_append,
    List.nil_append]
  after_results
  rfl

/-- The second table holds the take. -/
theorem tbl1_eq : (tbl m 1 : IVec S128 32) = scatTbl m := by
  unfold tbl
  show V m 0 main_v8 = _
  dsimp only [V]
  simp only [hostOps0, hostOps0_1, hostOps0_2, hostOps0_3, List.flatten_cons, List.flatten_nil, List.append_nil, List.cons_append,
    List.nil_append]
  after_results_simp
  simp only [TRef.ofBuf, TRef.toBuf, cast_eq]
  rfl

/-! ## The tables entry by entry -/

/-- the sample the sorted walk visits at grid point b -/
def src (b : Fin 128) : Fin 128 := Idealize.ShloMosaic.Argsort.src comparator_i32_i32_d0 (clipped m) b

theorem src_surjective : Function.Surjective (src m) :=
  Idealize.ShloMosaic.Argsort.src_surjective comparator_i32_i32_d0 (clipped m)

theorem src_injective : Function.Injective (src m) :=
  Idealize.ShloMosaic.Argsort.src_injective comparator_i32_i32_d0 (clipped m)

/-- Entry `b` of the argsort is the sample `src b`. -/
theorem orderTbl_toNat (b : Fin 128) : (orderTbl m (ix1 b)).toNat = (src m b).val := by
  rw [← ofFin_eq_ix1]
  exact Idealize.ShloMosaic.Argsort.argsort_toNat (by decide) comparator_i32_i32_d0 (clipped m) b

theorem order_toNat (b : Fin 128) : (tbl m 0 (ix1 b)).toNat = (src m b).val := by
  have e : (tbl m 0 : IVec S128 32) (ix1 b) = orderTbl m (ix1 b) := congrFun (tbl0_eq m) _
  exact (congrArg BitVec.toNat e).trans (orderTbl_toNat m b)

/-- A clipped word is the category word when that is below 32. -/
theorem clipped_apply (h : InRange m) (s : Fin 128) : clipped m (ix1 s) = catw m (ix1 s) := by
  show IntOp.minsi 31#32 (IntOp.maxsi 0#32 (catw m (ix1 s))) = _
  exact clip_id _ (h s)

/-- The position the take reads at row `b` is entry `b` of the argsort. -/
theorem wrapped_apply (b : Fin 128) : wrapped m (Predicate.ixP b) = orderTbl m (ix1 b) := by
  unfold wrapped
  rw [Predicate.bcast_col1, ofFin_eq_ix1]
  show Scalar.select (IntOp.cmpi .slt (orderTbl m (ix1 b)) 0#32) (IntOp.addi (orderTbl m (ix1 b)) 128#32) (orderTbl m (ix1 b)) = _
  exact sel_nonneg _ (by rw [orderTbl_toNat]; exact (src m b).isLt)

/-- Entry `b` of the take is the clipped word of the sample `src b`. -/
theorem scatTbl_apply (b : Fin 128) : scatTbl m (ix1 b) = clipped m (ix1 (src m b)) := by
  have hlt : (orderTbl m (ix1 b)).toNat < 128 := by rw [orderTbl_toNat]; exact (src m b).isLt
  have hk : min (wrapped m (Predicate.ixP b)).toInt.toNat (128 - 1) = (src m b).val := by
    rw [wrapped_apply, take_pos _ hlt, orderTbl_toNat]
  have hg := Predicate.gather_take gather_S128_S128x1_S128_n_0_n_n_0_1_1 rfl rfl rfl rfl (clipped m) (wrapped m) b
    (by decide)
  unfold scatTbl
  rw [← ofFin_eq_ix1 b, hg, ← ofFin_eq_ix1 (src m b)]
  exact congrArg (fun k => clipped m (Shape.Idx.ofFin k)) (Fin.ext hk)

theorem scat_toNat (h : InRange m) (b : Fin 128) : (tbl m 1 (ix1 b)).toNat = (catw m (ix1 (src m b))).toNat := by
  have e : (tbl m 1 : IVec S128 32) (ix1 b) = scatTbl m (ix1 b) := congrFun (tbl1_eq m) _
  refine (congrArg BitVec.toNat e).trans ?_
  rw [scatTbl_apply, clipped_apply m h]

-- Nothing below uses more of the walk or of the first table than the facts above.
attribute [irreducible] src orderTbl

/-! ## The index maps -/

/-- The point's coordinate as a word reads back as the coordinate. -/
theorem coord_toNat (i : grid0.Coords) : k0_off1 i 0 = (i 0).val := by
  show (BitVec.ofNat 32 (i 0).val).toNat = _
  have := (i 0).isLt
  have e : grid0.bound 0 = 128 := rfl
  rw [BitVec.toNat_ofNat]; omega

/-- A table's word at the unit rectangle at offset `k` is its entry `k`. -/
theorem at0 (pf : pre0.Contents (Elt F)) (k : Fin 128) (off : Fin 1 → Nat) (hoff : off 0 = k.val)
    (inb : ∀ a, off a + S1.size a ≤ S128.size a) (h1 : S1.numel = 1) :
    pf.at 0 (Rect.unit (s := S128) off S1.size inb) h1 = (pf 0 : IVec S128 32) (ix1 k) := by
  show (pf 0 : IVec S128 32) _ = _
  congr 1
  funext a
  match a with
  | ⟨0, _⟩ =>
    apply Fin.ext
    show off 0 + 1 * 0 = k.val
    omega

theorem at1 (pf : pre0.Contents (Elt F)) (k : Fin 128) (off : Fin 1 → Nat) (hoff : off 0 = k.val)
    (inb : ∀ a, off a + S1.size a ≤ S128.size a) (h1 : S1.numel = 1) :
    pf.at 1 (Rect.unit (s := S128) off S1.size inb) h1 = (pf 1 : IVec S128 32) (ix1 k) := by
  show (pf 1 : IVec S128 32) _ = _
  congr 1
  funext a
  match a with
  | ⟨0, _⟩ =>
    apply Fin.ext
    show off 0 + 1 * 0 = k.val
    omega

/-- The sample a grid point's coordinate names. -/
abbrev pt (i : grid0.Coords) : Fin 128 := ⟨(i 0).val, (i 0).isLt⟩

theorem transform_x (i : grid0.Coords) :
    cc0_transform_0 Gen.k0_off1_inb Gen.numel1_S1 (tbl m) i = ![(src m ⟨(i 0).val, (i 0).isLt⟩).val, 0, 0] := by
  have e := at0 (tbl m) (pt i) (k0_off1 i) (coord_toNat i) (Gen.k0_off1_inb i) Gen.numel1_S1
  show ![BitVec.toNat ((tbl m).at 0 (Rect.unit (s := S128) (k0_off1 i) S1.size (Gen.k0_off1_inb i)) Gen.numel1_S1), 0, 0] = _
  rw [e, order_toNat]

theorem transform_out (i : grid0.Coords) :
    cc0_transform_5 Gen.k0_off1_inb Gen.numel1_S1 (tbl m) i = ![(src m ⟨(i 0).val, (i 0).isLt⟩).val, 0, 0] := by
  have e := at0 (tbl m) (pt i) (k0_off1 i) (coord_toNat i) (Gen.k0_off1_inb i) Gen.numel1_S1
  show ![BitVec.toNat ((tbl m).at 0 (Rect.unit (s := S128) (k0_off1 i) S1.size (Gen.k0_off1_inb i)) Gen.numel1_S1), 0, 0] = _
  rw [e, order_toNat]

theorem transform_w1 (h : InRange m) (i : grid0.Coords) :
    cc0_transform_1 Gen.k0_off1_inb Gen.numel1_S1 (tbl m) i = ![(catw m (ix1 (src m ⟨(i 0).val, (i 0).isLt⟩))).toNat, 0, 0] := by
  have e := at1 (tbl m) (pt i) (k0_off1 i) (coord_toNat i) (Gen.k0_off1_inb i) Gen.numel1_S1
  show ![BitVec.toNat ((tbl m).at 1 (Rect.unit (s := S128) (k0_off1 i) S1.size (Gen.k0_off1_inb i)) Gen.numel1_S1), 0, 0] = _
  rw [e, scat_toNat m h]

theorem transform_b1 (h : InRange m) (i : grid0.Coords) :
    cc0_transform_2 Gen.k0_off1_inb Gen.numel1_S1 (tbl m) i = ![(catw m (ix1 (src m ⟨(i 0).val, (i 0).isLt⟩))).toNat, 0, 0] := by
  have e := at1 (tbl m) (pt i) (k0_off1 i) (coord_toNat i) (Gen.k0_off1_inb i) Gen.numel1_S1
  show ![BitVec.toNat ((tbl m).at 1 (Rect.unit (s := S128) (k0_off1 i) S1.size (Gen.k0_off1_inb i)) Gen.numel1_S1), 0, 0] = _
  rw [e, scat_toNat m h]

theorem transform_w2 (h : InRange m) (i : grid0.Coords) :
    cc0_transform_3 Gen.k0_off1_inb Gen.numel1_S1 (tbl m) i = ![(catw m (ix1 (src m ⟨(i 0).val, (i 0).isLt⟩))).toNat, 0, 0] := by
  have e := at1 (tbl m) (pt i) (k0_off1 i) (coord_toNat i) (Gen.k0_off1_inb i) Gen.numel1_S1
  show ![BitVec.toNat ((tbl m).at 1 (Rect.unit (s := S128) (k0_off1 i) S1.size (Gen.k0_off1_inb i)) Gen.numel1_S1), 0, 0] = _
  rw [e, scat_toNat m h]

theorem transform_b2 (h : InRange m) (i : grid0.Coords) :
    cc0_transform_4 Gen.k0_off1_inb Gen.numel1_S1 (tbl m) i = ![(catw m (ix1 (src m ⟨(i 0).val, (i 0).isLt⟩))).toNat, 0, 0] := by
  have e := at1 (tbl m) (pt i) (k0_off1 i) (coord_toNat i) (Gen.k0_off1_inb i) Gen.numel1_S1
  show ![BitVec.toNat ((tbl m).at 1 (Rect.unit (s := S128) (k0_off1 i) S1.size (Gen.k0_off1_inb i)) Gen.numel1_S1), 0, 0] = _
  rw [e, scat_toNat m h]

/-! ## Every block inside its array -/

/-- A block (r, 0, 0) of extents (1, p, q) lies inside an array of extents (n, p, q) when r < n. -/
theorem block_inb {n p q r : Nat} (hr : r < n) (a : Fin 3) :
    ((![r, 0, 0] : Fin 3 → Nat) a + 1) * (![1, p, q] : Fin 3 → Nat) a ≤ (![n, p, q] : Fin 3 → Nat) a := by
  match a with
  | ⟨0, _⟩ => show (r + 1) * 1 ≤ n; omega
  | ⟨1, _⟩ => show (0 + 1) * p ≤ p; omega
  | ⟨2, _⟩ => show (0 + 1) * q ≤ q; omega

theorem ok (h : InRange m) : Ok m := by
  refine ⟨fun i => ⟨fun a => ?_, Or.inl rfl⟩, fun i => ⟨fun a => ?_, Or.inl rfl⟩, fun i => ⟨fun a => ?_, Or.inl rfl⟩,
    fun i => ⟨fun a => ?_, Or.inl rfl⟩, fun i => ⟨fun a => ?_, Or.inl rfl⟩, fun i => ⟨fun a => ?_, Or.inl rfl⟩⟩
  · rw [transform_x m i]; exact block_inb (src m _).isLt a
  · rw [transform_w1 m h i]; exact block_inb (h _) a
  · rw [transform_b1 m h i]; exact block_inb (h _) a
  · rw [transform_w2 m h i]; exact block_inb (h _) a
  · rw [transform_b2 m h i]; exact block_inb (h _) a
  · rw [transform_out m i]; exact block_inb (src m _).isLt a

end Cert.KernelIdeal.Tables

end
-- ==== Proof.TablesBits.lean ====
/-
  The two tables the launch computes before its one grid: the stable argsort of the clipped category words, and the
  clipped categories read through that argsort. Entry by entry: entry `b` of the first is the sample `src b` that the
  sorted walk visits at point `b` (a bijection of the 128 samples), and, when every category word is below 32, entry
  `b` of the second is the category of that sample. From these, each of the six index maps at a grid point is the
  block (sample, 0, 0) or (category of the sample, 0, 0), and every such block lies inside its array.
-/
import proofs.«403329_j46205258170745_2_alg».proof.Proof.Gen.Kernel.Frame
import proofs.«403329_j46205258170745_2_alg».proof.Proof.LibArgsort
import Idealize.ShloMosaic.Lib.StableHlo.Predicate
import Idealize.ShloMosaic.Lib.StableHlo.Run
import Idealize.ShloMosaic.Lib.ValueIdx

set_option maxRecDepth 16384

noncomputable section

namespace Cert.Kernel.Tables

open Cert.Kernel Cert.Kernel.Gen
open Idealize.ShloMosaic Idealize.ShloMosaic.TcCoe Idealize.SL.Sem
open Idealize.ShloMosaic.ValueIdx Idealize.ShloMosaic.StableHlo

/-! ## Words -/

/-- The two spellings of the rank-1 index at `k` agree. -/
theorem ofFin_eq_ix1 {n : Nat} (k : Fin n) : (Shape.Idx.ofFin k : (⟨1, ![n]⟩ : Shape).Idx) = ix1 k := by
  funext a
  match a with
  | ⟨0, _⟩ => exact Fin.ext rfl

/-- Clipping to [0, 31] leaves a word below 32 as it is. -/
theorem clip_id (c : BitVec 32) (h : c.toNat < 32) : IntOp.minsi 31#32 (IntOp.maxsi 0#32 c) = c := by
  have hc : c.toInt = c.toNat := Predicate.toInt_eq_toNat_of_lt (by omega)
  have h0 : (0#32 : BitVec 32).toInt = 0 := by decide
  have h31 : (31#32 : BitVec 32).toInt = 31 := by decide
  have hmax : IntOp.maxsi 0#32 c = c := by
    unfold IntOp.maxsi
    rw [if_neg]
    simp only [BitVec.slt, hc, h0, decide_eq_true_eq]; omega
  rw [hmax]
  unfold IntOp.minsi
  rw [if_neg]
  simp only [BitVec.slt, hc, h31, decide_eq_true_eq]; omega

/-- Wrapping a negative position by 128 does nothing to a position word: it is not negative. -/
theorem sel_nonneg (w : BitVec 32) (h : w.toNat < 128) :
    Scalar.select (IntOp.cmpi .slt w 0#32) (IntOp.addi w 128#32) w = w := by
  have hc : w.toInt = w.toNat := Predicate.toInt_eq_toNat_of_lt (by omega)
  have h0 : (0#32 : BitVec 32).toInt = 0 := by decide
  have e : IntOp.cmpi .slt w 0#32 = 0#1 := by
    unfold IntOp.cmpi
    have : w.slt 0#32 = false := by
      simp only [BitVec.slt, hc, h0, decide_eq_false_iff_not]; omega
    rw [this]; rfl
  rw [e]
  unfold Scalar.select
  rw [if_neg (by decide)]

/-- A position word read signed and clamped into the 128 positions is itself. -/
theorem take_pos (w : BitVec 32) (h : w.toNat < 128) : min w.toInt.toNat (128 - 1) = w.toNat := by
  have hc : w.toInt = w.toNat := Predicate.toInt_eq_toNat_of_lt (by omega)
  rw [hc]; simp; omega

variable {F : FTy → Type} [FloatOps F]
variable (m : (ℓ : Loc nD τ sig) → Buf (Elt F) ℓ)

/-! ## The tables as terms of the category words -/

/-- the category words the program is launched with -/
abbrev catw : IVec S128 32 := m (((0 : Dev nD).tc : Thread nD τ).loc main_arg5)

/-- Every category word, read unsigned, is below the number of experts. -/
def InRange : Prop := ∀ s : Fin 128, (catw m (ix1 s)).toNat < 32

/-- The category words clipped to the 32 experts, as the launch computes them. -/
def clipped : IVec S128 32 :=
  minsi (broadcastInDim S128 ![] Gen.bcast_S_S128 (id (constantI S_ 32 31#32)))
    (maxsi (broadcastInDim S128 ![] Gen.bcast_S_S128 (id (constantI S_ 32 0#32))) (catw m))

/-- The first table: the stable argsort of the clipped words. -/
def orderTbl : IVec S128 32 :=
  (Host.sort2 S128 0 comparator_i32_i32_d0 (clipped m) (iotaInDim S128 32 0)).2

/-- The positions the second table is read at: the first table with a negative entry wrapped by 128, as a column. -/
def wrapped : IVec S128x1 32 :=
  broadcastInDim S128x1 ![0] Gen.bcast_S128_S128x1_0
    (select (cmpi .slt (orderTbl m) (broadcastInDim S128 ![] Gen.bcast_S_S128 (constantI S_ 32 0#32)))
      (addi (orderTbl m) (broadcastInDim S128 ![] Gen.bcast_S_S128 (constantI S_ 32 128#32))) (orderTbl m))

/-- The second table: the clipped words taken at those positions. -/
def scatTbl : IVec S128 32 :=
  Host.gather gather_S128_S128x1_S128_n_0_n_n_0_1_1 (clipped m) (wrapped m)

/-- The first table holds the argsort. -/
theorem tbl0_eq : (tbl m 0 : IVec S128 32) = orderTbl m := by
  unfold tbl
  show V m 0 main_v1 = _
  dsimp only [V]
  simp only [hostOps0, hostOps0_1, hostOps0_2, hostOps0_3, List.flatten_cons, List.flatten_nil, List.append_nil, List.cons_append,
    List.nil_append]
  after_results
  rfl

/-- The second table holds the take. -/
theorem tbl1_eq : (tbl m 1 : IVec S128 32) = scatTbl m := by
  unfold tbl
  show V m 0 main_v8 = _
  dsimp only [V]
  simp only [hostOps0, hostOps0_1, hostOps0_2, hostOps0_3, List.flatten_cons, List.flatten_nil, List.append_nil, List.cons_append,
    List.nil_append]
  after_results_simp
  simp only [TRef.ofBuf, TRef.toBuf, cast_eq]
  rfl

/-! ## The tables entry by entry -/

/-- the sample the sorted walk visits at grid point b -/
def src (b : Fin 128) : Fin 128 := Idealize.ShloMosaic.Argsort.src comparator_i32_i32_d0 (clipped m) b

theorem src_surjective : Function.Surjective (src m) :=
  Idealize.ShloMosaic.Argsort.src_surjective comparator_i32_i32_d0 (clipped m)

theorem src_injective : Function.Injective (src m) :=
  Idealize.ShloMosaic.Argsort.src_injective comparator_i32_i32_d0 (clipped m)

/-- Entry `b` of the argsort is the sample `src b`. -/
theorem orderTbl_toNat (b : Fin 128) : (orderTbl m (ix1 b)).toNat = (src m b).val := by
  rw [← ofFin_eq_ix1]
  exact Idealize.ShloMosaic.Argsort.argsort_toNat (by decide) comparator_i32_i32_d0 (clipped m) b

theorem order_toNat (b : Fin 128) : (tbl m 0 (ix1 b)).toNat = (src m b).val := by
  have e : (tbl m 0 : IVec S128 32) (ix1 b) = orderTbl m (ix1 b) := congrFun (tbl0_eq m) _
  exact (congrArg BitVec.toNat e).trans (orderTbl_toNat m b)

/-- A clipped word is the category word when that is below 32. -/
theorem clipped_apply (h : InRange m) (s : Fin 128) : clipped m (ix1 s) = catw m (ix1 s) := by
  show IntOp.minsi 31#32 (IntOp.maxsi 0#32 (catw m (ix1 s))) = _
  exact clip_id _ (h s)

/-- The position the take reads at row `b` is entry `b` of the argsort. -/
theorem wrapped_apply (b : Fin 128) : wrapped m (Predicate.ixP b) = orderTbl m (ix1 b) := by
  unfold wrapped
  rw [Predicate.bcast_col1, ofFin_eq_ix1]
  show Scalar.select (IntOp.cmpi .slt (orderTbl m (ix1 b)) 0#32) (IntOp.addi (orderTbl m (ix1 b)) 128#32) (orderTbl m (ix1 b)) = _
  exact sel_nonneg _ (by rw [orderTbl_toNat]; exact (src m b).isLt)

/-- Entry `b` of the take is the clipped word of the sample `src b`. -/
theorem scatTbl_apply (b : Fin 128) : scatTbl m (ix1 b) = clipped m (ix1 (src m b)) := by
  have hlt : (orderTbl m (ix1 b)).toNat < 128 := by rw [orderTbl_toNat]; exact (src m b).isLt
  have hk : min (wrapped m (Predicate.ixP b)).toInt.toNat (128 - 1) = (src m b).val := by
    rw [wrapped_apply, take_pos _ hlt, orderTbl_toNat]
  have hg := Predicate.gather_take gather_S128_S128x1_S128_n_0_n_n_0_1_1 rfl rfl rfl rfl (clipped m) (wrapped m) b
    (by decide)
  unfold scatTbl
  rw [← ofFin_eq_ix1 b, hg, ← ofFin_eq_ix1 (src m b)]
  exact congrArg (fun k => clipped m (Shape.Idx.ofFin k)) (Fin.ext hk)

theorem scat_toNat (h : InRange m) (b : Fin 128) : (tbl m 1 (ix1 b)).toNat = (catw m (ix1 (src m b))).toNat := by
  have e : (tbl m 1 : IVec S128 32) (ix1 b) = scatTbl m (ix1 b) := congrFun (tbl1_eq m) _
  refine (congrArg BitVec.toNat e).trans ?_
  rw [scatTbl_apply, clipped_apply m h]

-- Nothing below uses more of the walk or of the first table than the facts above.
attribute [irreducible] src orderTbl

/-! ## The index maps -/

/-- The point's coordinate as a word reads back as the coordinate. -/
theorem coord_toNat (i : grid0.Coords) : k0_off1 i 0 = (i 0).val := by
  show (BitVec.ofNat 32 (i 0).val).toNat = _
  have := (i 0).isLt
  have e : grid0.bound 0 = 128 := rfl
  rw [BitVec.toNat_ofNat]; omega

/-- A table's word at the unit rectangle at offset `k` is its entry `k`. -/
theorem at0 (pf : pre0.Contents (Elt F)) (k : Fin 128) (off : Fin 1 → Nat) (hoff : off 0 = k.val)
    (inb : ∀ a, off a + S1.size a ≤ S128.size a) (h1 : S1.numel = 1) :
    pf.at 0 (Rect.unit (s := S128) off S1.size inb) h1 = (pf 0 : IVec S128 32) (ix1 k) := by
  show (pf 0 : IVec S128 32) _ = _
  congr 1
  funext a
  match a with
  | ⟨0, _⟩ =>
    apply Fin.ext
    show off 0 + 1 * 0 = k.val
    omega

theorem at1 (pf : pre0.Contents (Elt F)) (k : Fin 128) (off : Fin 1 → Nat) (hoff : off 0 = k.val)
    (inb : ∀ a, off a + S1.size a ≤ S128.size a) (h1 : S1.numel = 1) :
    pf.at 1 (Rect.unit (s := S128) off S1.size inb) h1 = (pf 1 : IVec S128 32) (ix1 k) := by
  show (pf 1 : IVec S128 32) _ = _
  congr 1
  funext a
  match a with
  | ⟨0, _⟩ =>
    apply Fin.ext
    show off 0 + 1 * 0 = k.val
    omega

/-- The sample a grid point's coordinate names. -/
abbrev pt (i : grid0.Coords) : Fin 128 := ⟨(i 0).val, (i 0).isLt⟩

theorem transform_x (i : grid0.Coords) :
    cc0_transform_0 Gen.k0_off1_inb Gen.numel1_S1 (tbl m) i = ![(src m ⟨(i 0).val, (i 0).isLt⟩).val, 0, 0] := by
  have e := at0 (tbl m) (pt i) (k0_off1 i) (coord_toNat i) (Gen.k0_off1_inb i) Gen.numel1_S1
  show ![BitVec.toNat ((tbl m).at 0 (Rect.unit (s := S128) (k0_off1 i) S1.size (Gen.k0_off1_inb i)) Gen.numel1_S1), 0, 0] = _
  rw [e, order_toNat]

theorem transform_out (i : grid0.Coords) :
    cc0_transform_5 Gen.k0_off1_inb Gen.numel1_S1 (tbl m) i = ![(src m ⟨(i 0).val, (i 0).isLt⟩).val, 0, 0] := by
  have e := at0 (tbl m) (pt i) (k0_off1 i) (coord_toNat i) (Gen.k0_off1_inb i) Gen.numel1_S1
  show ![BitVec.toNat ((tbl m).at 0 (Rect.unit (s := S128) (k0_off1 i) S1.size (Gen.k0_off1_inb i)) Gen.numel1_S1), 0, 0] = _
  rw [e, order_toNat]

theorem transform_w1 (h : InRange m) (i : grid0.Coords) :
    cc0_transform_1 Gen.k0_off1_inb Gen.numel1_S1 (tbl m) i = ![(catw m (ix1 (src m ⟨(i 0).val, (i 0).isLt⟩))).toNat, 0, 0] := by
  have e := at1 (tbl m) (pt i) (k0_off1 i) (coord_toNat i) (Gen.k0_off1_inb i) Gen.numel1_S1
  show ![BitVec.toNat ((tbl m).at 1 (Rect.unit (s := S128) (k0_off1 i) S1.size (Gen.k0_off1_inb i)) Gen.numel1_S1), 0, 0] = _
  rw [e, scat_toNat m h]

theorem transform_b1 (h : InRange m) (i : grid0.Coords) :
    cc0_transform_2 Gen.k0_off1_inb Gen.numel1_S1 (tbl m) i = ![(catw m (ix1 (src m ⟨(i 0).val, (i 0).isLt⟩))).toNat, 0, 0] := by
  have e := at1 (tbl m) (pt i) (k0_off1 i) (coord_toNat i) (Gen.k0_off1_inb i) Gen.numel1_S1
  show ![BitVec.toNat ((tbl m).at 1 (Rect.unit (s := S128) (k0_off1 i) S1.size (Gen.k0_off1_inb i)) Gen.numel1_S1), 0, 0] = _
  rw [e, scat_toNat m h]

theorem transform_w2 (h : InRange m) (i : grid0.Coords) :
    cc0_transform_3 Gen.k0_off1_inb Gen.numel1_S1 (tbl m) i = ![(catw m (ix1 (src m ⟨(i 0).val, (i 0).isLt⟩))).toNat, 0, 0] := by
  have e := at1 (tbl m) (pt i) (k0_off1 i) (coord_toNat i) (Gen.k0_off1_inb i) Gen.numel1_S1
  show ![BitVec.toNat ((tbl m).at 1 (Rect.unit (s := S128) (k0_off1 i) S1.size (Gen.k0_off1_inb i)) Gen.numel1_S1), 0, 0] = _
  rw [e, scat_toNat m h]

theorem transform_b2 (h : InRange m) (i : grid0.Coords) :
    cc0_transform_4 Gen.k0_off1_inb Gen.numel1_S1 (tbl m) i = ![(catw m (ix1 (src m ⟨(i 0).val, (i 0).isLt⟩))).toNat, 0, 0] := by
  have e := at1 (tbl m) (pt i) (k0_off1 i) (coord_toNat i) (Gen.k0_off1_inb i) Gen.numel1_S1
  show ![BitVec.toNat ((tbl m).at 1 (Rect.unit (s := S128) (k0_off1 i) S1.size (Gen.k0_off1_inb i)) Gen.numel1_S1), 0, 0] = _
  rw [e, scat_toNat m h]

/-! ## Every block inside its array -/

/-- A block (r, 0, 0) of extents (1, p, q) lies inside an array of extents (n, p, q) when r < n. -/
theorem block_inb {n p q r : Nat} (hr : r < n) (a : Fin 3) :
    ((![r, 0, 0] : Fin 3 → Nat) a + 1) * (![1, p, q] : Fin 3 → Nat) a ≤ (![n, p, q] : Fin 3 → Nat) a := by
  match a with
  | ⟨0, _⟩ => show (r + 1) * 1 ≤ n; omega
  | ⟨1, _⟩ => show (0 + 1) * p ≤ p; omega
  | ⟨2, _⟩ => show (0 + 1) * q ≤ q; omega

theorem ok (h : InRange m) : Ok m := by
  refine ⟨fun i => ⟨fun a => ?_, Or.inl rfl⟩, fun i => ⟨fun a => ?_, Or.inl rfl⟩, fun i => ⟨fun a => ?_, Or.inl rfl⟩,
    fun i => ⟨fun a => ?_, Or.inl rfl⟩, fun i => ⟨fun a => ?_, Or.inl rfl⟩, fun i => ⟨fun a => ?_, Or.inl rfl⟩⟩
  · rw [transform_x m i]; exact block_inb (src m _).isLt a
  · rw [transform_w1 m h i]; exact block_inb (h _) a
  · rw [transform_b1 m h i]; exact block_inb (h _) a
  · rw [transform_w2 m h i]; exact block_inb (h _) a
  · rw [transform_b2 m h i]; exact block_inb (h _) a
  · rw [transform_out m i]; exact block_inb (src m _).isLt a

end Cert.Kernel.Tables

end
-- ==== Proof.LibPlainMatmul.lean ====
/-
  A plain matrix product on the matrix unit, read at an index.

  General: for any extents M, K, N. A product of an [M, K] block by a [K, N] block accumulated into the zero splat is, at
  the exact values, the sum over the contracted coordinate of the products of the entries: entry (a, b) of the result is
  the sum over c of A (a, c) times B (c, b). The accumulator contributes the real number zero, and no rounding or
  chunk order is left at the exact values. The same holds of the host's product of two matrices, which is the same sum;
  the two are joined here through that sum.
-/
import Idealize.ShloMosaic.Lib.StackMember
import Idealize.ShloMosaic.Lib.ValueIdx
import Idealize.ShloMosaic.PureOps.Ideal.Laws

noncomputable section

namespace Idealize.ShloMosaic.PlainMatmul

open Idealize.ShloMosaic Idealize.ShloMosaic.ValueIdx

/-- Entry (a, b) of an [M, K] by [K, N] product into a zero accumulator is the sum over c of A (a, c) * B (c, b). -/
theorem matmul_zero_plain_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    matmul (F := Ideal) (DotDims.plain M K N) prec A B (constant ⟨2, ![M, N]⟩ .f32 0x00000000#32) (ix2 a b)
      = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Idealize.ShloMosaic.PlainMatmul

end
-- ==== Proof.BodyIdeal.lean ====
/-
  What one grid step of the routed feed-forward kernel leaves in its output block.

  The step loads its five input blocks whole — one sample's rows `x` [1, 64, 1024], one expert's first matrix
  [1, 1024, 1024] and bias [1, 1, 1024], its second matrix [1, 1024, 1536] and bias [1, 1, 1536] — and stores ONE whole
  block [1, 64, 1536]. So the block holds the store's value, a pure function of the five loads; and at the exact values
  that function is, entry (0, t, o), the sum over the hidden coordinate h of
  max (∑ d, x (0,t,d) · W1 (0,d,h) + b1 (0,0,h)) 0 · W2 (0,h,o), plus b2 (0,0,o): the two products on the matrix unit
  into a zero accumulator are plain sums over the contracted coordinate, the narrowing to bf16 is the identity on exact
  values, a bias row laid over the 64 rows reads its one row, and the unit axes only rename coordinates.
-/
import proofs.«403329_j46205258170745_2_alg».proof.Proof.Gen.KernelIdeal.Frame
import proofs.«403329_j46205258170745_2_alg».proof.Proof.LibPlainMatmul
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

theorem hz3 : (![0, 0, 0] : Fin 3 → Nat) = fun _ => 0 := funext fun a => by fin_cases a <;> rfl

/-- The output block after the step is the one store's value of the five loaded blocks, whatever the staging
    buffers and whatever the tables hold. -/
theorem stored (c : Dev nD) (i : grid0.Coords) (arg3 : Memref sig .tc .vmem S1x64x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1536 .f32) (harg6 : arg6.IsWhole) (arg7 : Memref sig .tc .vmem S1x1x1536 .f32) (harg7 : arg7.IsWhole) (arg8 : Memref sig .tc .vmem S1x64x1536 .f32) (harg8 : arg8.IsWhole)
    (x0 : Vec F S1x64x1024 .f32) (x1 : Vec F S1x1024x1024 .f32) (x2 : Vec F S1x1x1024 .f32) (x3 : Vec F S1x1024x1536 .f32) (x4 : Vec F S1x1x1536 .f32) (xt0 : TbBuf0 (F := F) c tbM0_0) (xt1 : TbBuf0 (F := F) c tbM0_1) :
    out0_A_5 c i arg3 harg3 arg4 harg4 arg5 harg5 arg6 harg6 arg7 harg7 arg8 harg8 x0 x1 x2 x3 x4 xt0 xt1
      = k0_pay1 x0 x1 x2 x3 x4 := by
  unfold out0_A_5
  rw [View.read_writes_eq_canon _ _ _ (cover0_A_5 c i arg3 harg3 arg4 harg4 arg5 harg5 arg6 harg6 arg7 harg7 arg8 harg8 x0 x1 x2 x3 x4 xt0 xt1)]
  unfold kernelRun0_A
  dsimp only
  sl_unfold_words
  rw [View.canon_unit_zero hz3]
  simp only [View.readAt_eq_ld, harg3.read_unread, harg4.read_unread, harg5.read_unread, harg6.read_unread,
    harg7.read_unread, View.ld_unit_zero (S := S1x64x1024) hz3, View.ld_unit_zero (S := S1x1024x1024) hz3,
    View.ld_unit_zero (S := S1x1x1024) hz3, View.ld_unit_zero (S := S1x1024x1536) hz3,
    View.ld_unit_zero (S := S1x1x1536) hz3]

end Cert.KernelIdeal.Body

end
-- ==== Proof.PayloadAt.lean ====
/-
  The routed feed-forward step's stored value, read at an entry.

  The value the step stores is built from its five loaded blocks by: dropping the leading unit axis of `x`, of the two
  matrices and (twice) of the two bias rows; two products on the matrix unit into a zero accumulator; adding a bias row
  laid over the 64 rows; a maximum with zero; and putting the unit axis back. At the exact values, entry (0, t, o) is
  ∑ h, max (∑ d, x (0,t,d) · W1 (0,d,h) + b1 (0,0,h)) 0 · W2 (0,h,o), plus b2 (0,0,o).
-/
import proofs.«403329_j46205258170745_2_alg».proof.Proof.Gen.KernelIdeal.Skeleton
import proofs.«403329_j46205258170745_2_alg».proof.Proof.LibPlainMatmul
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-- A `[1, 1, a]` array cast to `[a]` reads, at `i`, the operand at `(0, 0, i)`. -/
theorem cast_11a_a {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    first | rfl | omega)

/-- A bias row `[1, 1, a]` squeezed to `[a]`, given back one unit axis and laid over `r` rows, reads at `(p, i)` the
    row's entry `(0, 0, i)`. -/
theorem bias_rows {a r : ℕ} (x : (⟨3, ![1, 1, a]⟩ : Shape).Idx → EReal)
    (h1 : (⟨3, ![1, 1, a]⟩ : Shape).ShapeCasts ⟨1, ![a]⟩) (h2 : (⟨1, ![a]⟩ : Shape).ShapeCasts ⟨2, ![1, a]⟩)
    (h3 : (⟨2, ![1, a]⟩ : Shape).Broadcasts ⟨2, ![r, a]⟩) (p : Fin r) (i : Fin a) :
    broadcastTo ⟨2, ![r, a]⟩ (shapeCast ⟨2, ![1, a]⟩ (shapeCast ⟨1, ![a]⟩ x h1) h2) h3 (ix2 p i)
      = x (ix3 (0 : Fin 1) (0 : Fin 1) i) := by
  rw [broadcastTo_1b_ab_apply, shapeCast_a_1a_apply, cast_11a_a]

/-- The hidden activation inside the step: entry `(t, h)` of relu (x · W1 + b1). -/
theorem hidden_apply (x0 : Vec Ideal S1x64x1024 .f32) (x1 : Vec Ideal S1x1024x1024 .f32) (x2 : Vec Ideal S1x1x1024 .f32)
    (t : Fin 64) (h : Fin 1024) :
    maximumf (F := Ideal) (addf (matmul dot_S64x1024_S1024x1024_S64x1024_1_0_0_1_n_n none
        (truncf .bf16 (shapeCast S64x1024 x0 shapeCasts_S1x64x1024_S64x1024) bitsLt_bf16_f32)
        (truncf .bf16 (shapeCast S1024x1024 x1 shapeCasts_S1x1024x1024_S1024x1024) bitsLt_bf16_f32)
        (constant S64x1024 .f32 0x00000000#32))
      (broadcastTo S64x1024 (shapeCast S1x1024 (shapeCast S1024 x2 shapeCasts_S1x1x1024_S1024) shapeCasts_S1024_S1x1024) broadcasts_S1x1024_S64x1024))
      (broadcast S64x1024 (Scalar.ofBits .f32 0x00000000#32)) (ix2 t h)
    = max ((∑ d : Fin 1024, x0 (ix3 (0 : Fin 1) t d) * x1 (ix3 (0 : Fin 1) d h)) + x2 (ix3 (0 : Fin 1) (0 : Fin 1) h)) 0 := by
  rw [maximumf_apply, addf_apply, broadcast_apply]
  congr 1
  · congr 1
    · refine (PlainMatmul.matmul_zero_plain_apply (M := 64) (K := 1024) (N := 1024) none _ _ t h).trans ?_
      refine Finset.sum_congr rfl fun d _ => ?_
      rw [truncf_apply, truncf_apply, shapeCast_1ab_ab_apply, shapeCast_1ab_ab_apply]
    · exact bias_rows x2 _ _ _ t h
  · exact Ideal.ofBits_zero_f32

/-- THE STORED VALUE AT AN ENTRY. -/
theorem pay_apply (x0 : Vec Ideal S1x64x1024 .f32) (x1 : Vec Ideal S1x1024x1024 .f32) (x2 : Vec Ideal S1x1x1024 .f32)
    (x3 : Vec Ideal S1x1024x1536 .f32) (x4 : Vec Ideal S1x1x1536 .f32) (u : Fin 1) (t : Fin 64) (o : Fin 1536) :
    k0_pay1 (F := Ideal) x0 x1 x2 x3 x4 (ix3 u t o)
      = (∑ h : Fin 1024, max ((∑ d : Fin 1024, x0 (ix3 (0 : Fin 1) t d) * x1 (ix3 (0 : Fin 1) d h))
            + x2 (ix3 (0 : Fin 1) (0 : Fin 1) h)) 0 * x3 (ix3 (0 : Fin 1) h o))
        + x4 (ix3 (0 : Fin 1) (0 : Fin 1) o) := by
  unfold k0_pay1
  rw [shapeCast_ab_1ab_apply, addf_apply]
  congr 1
  · refine (PlainMatmul.matmul_zero_plain_apply (M := 64) (K := 1024) (N := 1536) none _ _ t o).trans ?_
    refine Finset.sum_congr rfl fun h _ => ?_
    rw [truncf_apply, truncf_apply, shapeCast_1ab_ab_apply]
    congr 1
    exact hidden_apply x0 x1 x2 t h
  · exact bias_rows x4 _ _ _ t o

end Cert.KernelIdeal.Body

end
-- ==== Proof.Spec.lean ====
/-
  The category-routed two-layer feed-forward map, entry by entry.

  Sample `s` of the batch carries a category word; the category picks one expert, that is one first-layer matrix and
  bias and one second-layer matrix and bias, out of 32. The hidden activation of sample `s` at row `t` and hidden
  column `h` is the positive part of the row of `x` times the column of the expert's first matrix plus the expert's
  first bias; the output at row `t` and column `o` is the hidden row times the column of the expert's second matrix
  plus the expert's second bias. Everything is over the extended reals, with the sums taken over the contracted
  coordinate in one go.
-/
import Idealize.ShloMosaic.Lib.ValueIdx
import Idealize.ShloMosaic.PureOps.Ideal

noncomputable section

open scoped BigOperators

namespace Cert.Spec

open Idealize.ShloMosaic Idealize.ShloMosaic.ValueIdx

/-- Sample `s`'s category as a position of the 32-expert tables: the word read unsigned and capped at the last
    expert. For a word below 32 it is the word itself. -/
def catOf (cat : IVec ⟨1, ![128]⟩ 32) (s : Fin 128) : Fin 32 :=
  ⟨min (cat (ix1 s)).toNat 31, by omega⟩

/-- A category word below 32 is its own position. -/
theorem catOf_val (cat : IVec ⟨1, ![128]⟩ 32) (s : Fin 128) (h : (cat (ix1 s)).toNat < 32) :
    (catOf cat s).val = (cat (ix1 s)).toNat := by
  show min _ 31 = _
  omega

/-- The hidden activation: relu of (row `t` of sample `s`) · (column `h` of the expert's first matrix) + first bias. -/
def hidden (x : FVec Ideal ⟨3, ![128, 64, 1024]⟩ .f32) (W1 : FVec Ideal ⟨3, ![32, 1024, 1024]⟩ .f32)
    (b1 : FVec Ideal ⟨2, ![32, 1024]⟩ .f32) (cat : IVec ⟨1, ![128]⟩ 32) (s : Fin 128) (t : Fin 64) (h : Fin 1024) : EReal :=
  max ((∑ d : Fin 1024, x (ix3 s t d) * W1 (ix3 (catOf cat s) d h)) + b1 (ix2 (catOf cat s) h)) 0

/-- The output entry: (hidden row `t` of sample `s`) · (column `o` of the expert's second matrix) + second bias. -/
def ffnAt (x : FVec Ideal ⟨3, ![128, 64, 1024]⟩ .f32) (W1 : FVec Ideal ⟨3, ![32, 1024, 1024]⟩ .f32)
    (b1 : FVec Ideal ⟨2, ![32, 1024]⟩ .f32) (W2 : FVec Ideal ⟨3, ![32, 1024, 1536]⟩ .f32)
    (b2 : FVec Ideal ⟨2, ![32, 1536]⟩ .f32) (cat : IVec ⟨1, ![128]⟩ 32) (s : Fin 128) (t : Fin 64) (o : Fin 1536) : EReal :=
  (∑ h : Fin 1024, hidden x W1 b1 cat s t h * W2 (ix3 (catOf cat s) h o)) + b2 (ix2 (catOf cat s) o)

/-- The whole output array. -/
def ffn (x : FVec Ideal ⟨3, ![128, 64, 1024]⟩ .f32) (W1 : FVec Ideal ⟨3, ![32, 1024, 1024]⟩ .f32)
    (b1 : FVec Ideal ⟨2, ![32, 1024]⟩ .f32) (W2 : FVec Ideal ⟨3, ![32, 1024, 1536]⟩ .f32)
    (b2 : FVec Ideal ⟨2, ![32, 1536]⟩ .f32) (cat : IVec ⟨1, ![128]⟩ 32) : FVec Ideal ⟨3, ![128, 64, 1536]⟩ .f32 :=
  fun i => ffnAt x W1 b1 W2 b2 cat (i 0) (i 1) (i 2)

theorem ffn_apply (x : FVec Ideal ⟨3, ![128, 64, 1024]⟩ .f32) (W1 : FVec Ideal ⟨3, ![32, 1024, 1024]⟩ .f32)
    (b1 : FVec Ideal ⟨2, ![32, 1024]⟩ .f32) (W2 : FVec Ideal ⟨3, ![32, 1024, 1536]⟩ .f32)
    (b2 : FVec Ideal ⟨2, ![32, 1536]⟩ .f32) (cat : IVec ⟨1, ![128]⟩ 32) (s : Fin 128) (t : Fin 64) (o : Fin 1536) :
    ffn x W1 b1 W2 b2 cat (ix3 s t o) = ffnAt x W1 b1 W2 b2 cat s t o := rfl

end Cert.Spec

end
-- ==== Proof.KernelWhole.lean ====
/-
  The routed feed-forward kernel's result array, whole.

  The kernel's grid has 128 points. At point `t` the block index maps read two tables: the sample `src t` the sorted walk
  visits there, and that sample's category. So the point loads rows `src t` of `x`, the two matrices and the two bias
  rows of that category's expert (the bias arrays arrive with a middle unit axis inserted, which only renames
  coordinates), computes one sample's relu (x · W1 + b1) · W2 + b2, and writes block `src t` of the result.

  Three facts about the walk carry the whole array. It is a function of the point alone, so each written block is the
  routed map's block for the visited sample (with the expert of ITS category). It is injective, so consecutive points
  write different blocks and every point's block is written back. It is onto, so every sample's block is written.
  Hence the result array is the routed map of the launch arrays, entry by entry.
-/
import proofs.«403329_j46205258170745_2_alg».proof.Proof.Gen.KernelIdeal.Frame
import proofs.«403329_j46205258170745_2_alg».proof.Proof.BodyIdeal
import proofs.«403329_j46205258170745_2_alg».proof.Proof.PayloadAt
import proofs.«403329_j46205258170745_2_alg».proof.Proof.Spec
import Idealize.ShloMosaic.Lib.Pipeline.Value
import Idealize.ShloMosaic.Lib.StableHlo.Run
import Idealize.ShloMosaic.Lib.ValueLayout
import Idealize.ShloMosaic.Lib.ValueIdx

set_option maxRecDepth 16384

noncomputable section

open scoped BigOperators

namespace Cert.KernelIdeal.Whole

open Cert.KernelIdeal Cert.KernelIdeal.Gen
open Idealize.ShloMosaic Idealize.ShloMosaic.TcCoe Idealize.ShloMosaic.Tactic Idealize.ShloMosaic.ValueIdx
open Idealize.ShloMosaic.StableHlo
open Idealize.SL Idealize.SL.Sem

variable (m : (ℓ : Loc nD τ sig) → Buf (Elt Ideal) ℓ) (ρ : Dev nD → PrngReg)

/-- The launch arrays, at their literal types. -/
abbrev ax (c : Dev nD) : FVec Ideal S128x64x1024 .f32 := m ((c : Thread nD τ).loc main_arg0)
abbrev aW1 (c : Dev nD) : FVec Ideal S32x1024x1024 .f32 := m ((c : Thread nD τ).loc main_arg1)
abbrev ab1 (c : Dev nD) : FVec Ideal S32x1024 .f32 := m ((c : Thread nD τ).loc main_arg2)
abbrev aW2 (c : Dev nD) : FVec Ideal S32x1024x1536 .f32 := m ((c : Thread nD τ).loc main_arg3)
abbrev ab2 (c : Dev nD) : FVec Ideal S32x1536 .f32 := m ((c : Thread nD τ).loc main_arg4)
abbrev acat (c : Dev nD) : IVec S128 32 := m ((c : Thread nD τ).loc main_arg5)

/-- What the result array is to hold: the routed feed-forward map of the launch arrays. -/
def target (c : Dev nD) : FVec Ideal S128x64x1536 .f32 :=
  Cert.Spec.ffn (ax m c) (aW1 m c) (ab1 m c) (aW2 m c) (ab2 m c) (acat m c)

/-- The grid point as a position of the sorted walk. -/
abbrev pt (i : grid0.Coords) : Fin 128 := ⟨(i 0).val, (i 0).isLt⟩

/-- THE SORTED WALK as the block index maps see it: a bijection `src` of the 128 positions (the sample visited at each
    grid point), every category in range, the sample-indexed windows (x and the output) at block `src` of the point,
    the expert-indexed windows at the block of that sample's category. -/
structure Walk where
  src : Fin 128 → Fin 128
  inj : Function.Injective src
  surj : Function.Surjective src
  range : ∀ (c : Dev nD) (s : Fin 128), (acat m c (ix1 s)).toNat < 32
  tx : ∀ i : grid0.Coords, cc0_transform_0 Facts₀.k0_off1_inb Facts₀.numel1_S1 (tbl m) i = ![(src (pt i)).val, 0, 0]
  tout : ∀ i : grid0.Coords, cc0_transform_5 Facts₀.k0_off1_inb Facts₀.numel1_S1 (tbl m) i = ![(src (pt i)).val, 0, 0]
  tw1 : ∀ (c : Dev nD) (i : grid0.Coords), cc0_transform_1 Facts₀.k0_off1_inb Facts₀.numel1_S1 (tbl m) i = ![(acat m c (ix1 (src (pt i)))).toNat, 0, 0]
  tb1 : ∀ (c : Dev nD) (i : grid0.Coords), cc0_transform_2 Facts₀.k0_off1_inb Facts₀.numel1_S1 (tbl m) i = ![(acat m c (ix1 (src (pt i)))).toNat, 0, 0]
  tw2 : ∀ (c : Dev nD) (i : grid0.Coords), cc0_transform_3 Facts₀.k0_off1_inb Facts₀.numel1_S1 (tbl m) i = ![(acat m c (ix1 (src (pt i)))).toNat, 0, 0]
  tb2 : ∀ (c : Dev nD) (i : grid0.Coords), cc0_transform_4 Facts₀.k0_off1_inb Facts₀.numel1_S1 (tbl m) i = ![(acat m c (ix1 (src (pt i)))).toNat, 0, 0]

variable {m}

/-- The first bias as the region finds it: the launch array with a unit axis inserted. -/
theorem V_v9 (c : Dev nD) : (V m c main_v9 : S32x1x1024.Idx → EReal)
    = shapeCast S32x1x1024 (ab1 m c) Facts₀.shapeCasts_S32x1024_S32x1x1024 := by
  dsimp only [V]
  simp only [hostOps0, hostOps0_1, hostOps0_2, hostOps0_3, List.flatten_cons, List.flatten_nil, List.append_nil,
    List.cons_append, List.nil_append]
  after_results
  rfl

/-- The second bias likewise. -/
theorem V_v10 (c : Dev nD) : (V m c main_v10 : S32x1x1536.Idx → EReal)
    = shapeCast S32x1x1536 (ab2 m c) Facts₀.shapeCasts_S32x1536_S32x1x1536 := by
  dsimp only [V]
  simp only [hostOps0, hostOps0_1, hostOps0_2, hostOps0_3, List.flatten_cons, List.flatten_nil, List.append_nil,
    List.cons_append, List.nil_append]
  after_results
  rfl

/-- A `[n, a]` array given a middle unit axis reads, at `(e, u, k)`, the array at `(e, k)`. -/
theorem cast_mid {α : Type} {n a : ℕ} (x : (⟨2, ![n, a]⟩ : Shape).Idx → α)
    (h : (⟨2, ![n, a]⟩ : Shape).ShapeCasts ⟨3, ![n, 1, a]⟩) (e : Fin n) (u : Fin 1) (k : Fin a) :
    shapeCast ⟨3, ![n, 1, a]⟩ x h (ix3 e u k) = x (ix2 e k) :=
  shapeCast_apply x h _ _ (by
    have hu : u.val = 0 := by omega
    rw [Shape.rowMajor_val_two, Shape.rowMajor_val_three]
    show e.val * a + k.val = (e.val * 1 + u.val) * a + k.val
    rw [hu, Nat.mul_one, Nat.add_zero])

/-- Window 0's block at a point is the visited sample's rows of `x`. -/
theorem xblk (W : Walk m) (hO : Ok m) (c : Dev nD) (t : Fin (cfgM m hO).N) (j : S1x64x1024.Idx) :
    (iblk m hO c 0 t : Vec Ideal S1x64x1024 .f32) j = ax m c (ix3 (W.src (pt (grid0.coords t))) (j 1) (j 2)) := by
  show V m c main_arg0 ((((cfgM m hO).win 0).blk t).view.emb j) = _
  rw [V_main_arg0]
  congr 1
  funext a
  apply Fin.ext
  have hx := W.tx (grid0.coords t)
  match a with
  | ⟨0, _⟩ =>
    show cc0_transform_0 Facts₀.k0_off1_inb Facts₀.numel1_S1 (tbl m) (grid0.coords t) (0 : Fin 3) * 1 + 1 * (j 0).val = (W.src (pt (grid0.coords t))).val
    have h0 : (j 0).val < 1 := (j 0).isLt
    rw [hx]
    show (W.src (pt (grid0.coords t))).val * 1 + 1 * (j 0).val = _
    omega
  | ⟨1, _⟩ =>
    show cc0_transform_0 Facts₀.k0_off1_inb Facts₀.numel1_S1 (tbl m) (grid0.coords t) (1 : Fin 3) * 64 + 1 * (j 1).val = (j 1).val
    rw [hx]
    show 0 * 64 + 1 * (j 1).val = _
    omega
  | ⟨2, _⟩ =>
    show cc0_transform_0 Facts₀.k0_off1_inb Facts₀.numel1_S1 (tbl m) (grid0.coords t) (2 : Fin 3) * 1024 + 1 * (j 2).val = (j 2).val
    rw [hx]
    show 0 * 1024 + 1 * (j 2).val = _
    omega

/-- Window 1's block at a point is the first matrix of the visited sample's expert. -/
theorem w1blk (W : Walk m) (hO : Ok m) (c : Dev nD) (t : Fin (cfgM m hO).N) (j : S1x1024x1024.Idx) :
    (iblk m hO c 1 t : Vec Ideal S1x1024x1024 .f32) j
      = aW1 m c (ix3 (Cert.Spec.catOf (acat m c) (W.src (pt (grid0.coords t)))) (j 1) (j 2)) := by
  show V m c main_arg1 ((((cfgM m hO).win 1).blk t).view.emb j) = _
  rw [V_main_arg1]
  congr 1
  funext a
  apply Fin.ext
  have hx := W.tw1 c (grid0.coords t)
  have hc := Cert.Spec.catOf_val (acat m c) (W.src (pt (grid0.coords t))) (W.range c _)
  match a with
  | ⟨0, _⟩ =>
    show cc0_transform_1 Facts₀.k0_off1_inb Facts₀.numel1_S1 (tbl m) (grid0.coords t) (0 : Fin 3) * 1 + 1 * (j 0).val = (Cert.Spec.catOf (acat m c) (W.src (pt (grid0.coords t)))).val
    have h0 : (j 0).val < 1 := (j 0).isLt
    rw [hx, hc]
    show (acat m c (ix1 (W.src (pt (grid0.coords t))))).toNat * 1 + 1 * (j 0).val = _
    omega
  | ⟨1, _⟩ =>
    show cc0_transform_1 Facts₀.k0_off1_inb Facts₀.numel1_S1 (tbl m) (grid0.coords t) (1 : Fin 3) * 1024 + 1 * (j 1).val = (j 1).val
    rw [hx]
    show 0 * 1024 + 1 * (j 1).val = _
    omega
  | ⟨2, _⟩ =>
    show cc0_transform_1 Facts₀.k0_off1_inb Facts₀.numel1_S1 (tbl m) (grid0.coords t) (2 : Fin 3) * 1024 + 1 * (j 2).val = (j 2).val
    rw [hx]
    show 0 * 1024 + 1 * (j 2).val = _
    omega

/-- Window 3's block at a point is the second matrix of the visited sample's expert. -/
theorem w2blk (W : Walk m) (hO : Ok m) (c : Dev nD) (t : Fin (cfgM m hO).N) (j : S1x1024x1536.Idx) :
    (iblk m hO c 3 t : Vec Ideal S1x1024x1536 .f32) j
      = aW2 m c (ix3 (Cert.Spec.catOf (acat m c) (W.src (pt (grid0.coords t)))) (j 1) (j 2)) := by
  show V m c main_arg3 ((((cfgM m hO).win 3).blk t).view.emb j) = _
  rw [V_main_arg3]
  congr 1
  funext a
  apply Fin.ext
  have hx := W.tw2 c (grid0.coords t)
  have hc := Cert.Spec.catOf_val (acat m c) (W.src (pt (grid0.coords t))) (W.range c _)
  match a with
  | ⟨0, _⟩ =>
    show cc0_transform_3 Facts₀.k0_off1_inb Facts₀.numel1_S1 (tbl m) (grid0.coords t) (0 : Fin 3) * 1 + 1 * (j 0).val = (Cert.Spec.catOf (acat m c) (W.src (pt (grid0.coords t)))).val
    have h0 : (j 0).val < 1 := (j 0).isLt
    rw [hx, hc]
    show (acat m c (ix1 (W.src (pt (grid0.coords t))))).toNat * 1 + 1 * (j 0).val = _
    omega
  | ⟨1, _⟩ =>
    show cc0_transform_3 Facts₀.k0_off1_inb Facts₀.numel1_S1 (tbl m) (grid0.coords t) (1 : Fin 3) * 1024 + 1 * (j 1).val = (j 1).val
    rw [hx]
    show 0 * 1024 + 1 * (j 1).val = _
    omega
  | ⟨2, _⟩ =>
    show cc0_transform_3 Facts₀.k0_off1_inb Facts₀.numel1_S1 (tbl m) (grid0.coords t) (2 : Fin 3) * 1536 + 1 * (j 2).val = (j 2).val
    rw [hx]
    show 0 * 1536 + 1 * (j 2).val = _
    omega

/-- Window 2's block at a point is the first bias row of the visited sample's expert. -/
theorem b1blk (W : Walk m) (hO : Ok m) (c : Dev nD) (t : Fin (cfgM m hO).N) (j : S1x1x1024.Idx) :
    (iblk m hO c 2 t : Vec Ideal S1x1x1024 .f32) j
      = ab1 m c (ix2 (Cert.Spec.catOf (acat m c) (W.src (pt (grid0.coords t)))) (j 2)) := by
  show V m c main_v9 ((((cfgM m hO).win 2).blk t).view.emb j) = _
  have hx := W.tb1 c (grid0.coords t)
  have hc := Cert.Spec.catOf_val (acat m c) (W.src (pt (grid0.coords t))) (W.range c _)
  have he : (((cfgM m hO).win 2).blk t).view.emb j
      = (ix3 (Cert.Spec.catOf (acat m c) (W.src (pt (grid0.coords t)))) (0 : Fin 1) (⟨(j 2).val, (j 2).isLt⟩ : Fin 1024) : (⟨3, ![32, 1, 1024]⟩ : Shape).Idx) := by
    funext a
    apply Fin.ext
    match a with
    | ⟨0, _⟩ =>
      show cc0_transform_2 Facts₀.k0_off1_inb Facts₀.numel1_S1 (tbl m) (grid0.coords t) (0 : Fin 3) * 1 + 1 * (j 0).val = (Cert.Spec.catOf (acat m c) (W.src (pt (grid0.coords t)))).val
      have h0 : (j 0).val < 1 := (j 0).isLt
      rw [hx, hc]
      show (acat m c (ix1 (W.src (pt (grid0.coords t))))).toNat * 1 + 1 * (j 0).val = _
      omega
    | ⟨1, _⟩ =>
      show cc0_transform_2 Facts₀.k0_off1_inb Facts₀.numel1_S1 (tbl m) (grid0.coords t) (1 : Fin 3) * 1 + 1 * (j 1).val = 0
      have h1 : (j 1).val < 1 := (j 1).isLt
      rw [hx]
      show 0 * 1 + 1 * (j 1).val = _
      omega
    | ⟨2, _⟩ =>
      show cc0_transform_2 Facts₀.k0_off1_inb Facts₀.numel1_S1 (tbl m) (grid0.coords t) (2 : Fin 3) * 1024 + 1 * (j 2).val = (j 2).val
      rw [hx]
      show 0 * 1024 + 1 * (j 2).val = _
      omega
  rw [he, V_v9]
  exact cast_mid (n := 32) (a := 1024) (ab1 m c) Facts₀.shapeCasts_S32x1024_S32x1x1024 _ (0 : Fin 1) _

/-- Window 4's block at a point is the second bias row of the visited sample's expert. -/
theorem b2blk (W : Walk m) (hO : Ok m) (c : Dev nD) (t : Fin (cfgM m hO).N) (j : S1x1x1536.Idx) :
    (iblk m hO c 4 t : Vec Ideal S1x1x1536 .f32) j
      = ab2 m c (ix2 (Cert.Spec.catOf (acat m c) (W.src (pt (grid0.coords t)))) (j 2)) := by
  show V m c main_v10 ((((cfgM m hO).win 4).blk t).view.emb j) = _
  have hx := W.tb2 c (grid0.coords t)
  have hc := Cert.Spec.catOf_val (acat m c) (W.src (pt (grid0.coords t))) (W.range c _)
  have he : (((cfgM m hO).win 4).blk t).view.emb j
      = (ix3 (Cert.Spec.catOf (acat m c) (W.src (pt (grid0.coords t)))) (0 : Fin 1) (⟨(j 2).val, (j 2).isLt⟩ : Fin 1536) : (⟨3, ![32, 1, 1536]⟩ : Shape).Idx) := by
    funext a
    apply Fin.ext
    match a with
    | ⟨0, _⟩ =>
      show cc0_transform_4 Facts₀.k0_off1_inb Facts₀.numel1_S1 (tbl m) (grid0.coords t) (0 : Fin 3) * 1 + 1 * (j 0).val = (Cert.Spec.catOf (acat m c) (W.src (pt (grid0.coords t)))).val
      have h0 : (j 0).val < 1 := (j 0).isLt
      rw [hx, hc]
      show (acat m c (ix1 (W.src (pt (grid0.coords t))))).toNat * 1 + 1 * (j 0).val = _
      omega
    | ⟨1, _⟩ =>
      show cc0_transform_4 Facts₀.k0_off1_inb Facts₀.numel1_S1 (tbl m) (grid0.coords t) (1 : Fin 3) * 1 + 1 * (j 1).val = 0
      have h1 : (j 1).val < 1 := (j 1).isLt
      rw [hx]
      show 0 * 1 + 1 * (j 1).val = _
      omega
    | ⟨2, _⟩ =>
      show cc0_transform_4 Facts₀.k0_off1_inb Facts₀.numel1_S1 (tbl m) (grid0.coords t) (2 : Fin 3) * 1536 + 1 * (j 2).val = (j 2).val
      rw [hx]
      show 0 * 1536 + 1 * (j 2).val = _
      omega
  rw [he, V_v10]
  exact cast_mid (n := 32) (a := 1536) (ab2 m c) Facts₀.shapeCasts_S32x1536_S32x1x1536 _ (0 : Fin 1) _

/-- On the one-axis grid the coordinate of point `t` is `t`. -/
theorem coords_val : ∀ t : Fin grid0.N, ((grid0.coords t) 0).val = t.val := by decide +kernel

/-- WHAT POINT `t` WRITES BACK is block `t` of the target: the step's stored value at an entry, with each loaded block
    read where the walk puts it, is the routed map's entry for the visited sample. -/
theorem flushed_eq (W : Walk m) (hO : Ok m) (c : Dev nD) (t : Fin (cfgM m hO).N) :
    (dats m hO 0 c).flushed 5 t = (((cfgM m hO).win 5).blk t).view.read (Elt Ideal) (target m c) := by
  show ((cfgM m hO).win 5).cut (grid0.coords t) ((dats m hO 0 c).after 5 t) = _
  rw [after0_5]
  unfold outsAt0
  refine funext fun (j : S1x64x1536.Idx) => ?_
  show out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) j = target m c ((((cfgM m hO).win 5).blk t).view.emb j)
  refine (congrFun (Cert.KernelIdeal.Body.stored c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1)) j).trans ?_
  have ht := W.tout (grid0.coords t)
  have he : (((cfgM m hO).win 5).blk t).view.emb j = ix3 (W.src (pt (grid0.coords t))) (j 1) (j 2) := by
    funext a
    apply Fin.ext
    match a with
    | ⟨0, _⟩ =>
      show cc0_transform_5 Facts₀.k0_off1_inb Facts₀.numel1_S1 (tbl m) (grid0.coords t) (0 : Fin 3) * 1 + 1 * (j 0).val = (W.src (pt (grid0.coords t))).val
      have h0 : (j 0).val < 1 := (j 0).isLt
      rw [ht]
      show (W.src (pt (grid0.coords t))).val * 1 + 1 * (j 0).val = _
      omega
    | ⟨1, _⟩ =>
      show cc0_transform_5 Facts₀.k0_off1_inb Facts₀.numel1_S1 (tbl m) (grid0.coords t) (1 : Fin 3) * 64 + 1 * (j 1).val = (j 1).val
      rw [ht]
      show 0 * 64 + 1 * (j 1).val = _
      omega
    | ⟨2, _⟩ =>
      show cc0_transform_5 Facts₀.k0_off1_inb Facts₀.numel1_S1 (tbl m) (grid0.coords t) (2 : Fin 3) * 1536 + 1 * (j 2).val = (j 2).val
      rw [ht]
      show 0 * 1536 + 1 * (j 2).val = _
      omega
  refine Eq.trans ?_ (congrArg (target m c) he).symm
  have hj : (j : S1x64x1536.Idx) = ix3 (j 0) (j 1) (j 2) := eq_ix3 j
  refine (congrArg (k0_pay1 (F := Ideal) (iblk m hO c 0 t) (iblk m hO c 1 t) (iblk m hO c 2 t) (iblk m hO c 3 t) (iblk m hO c 4 t)) hj).trans ?_
  refine (Cert.KernelIdeal.Body.pay_apply (iblk m hO c 0 t) (iblk m hO c 1 t) (iblk m hO c 2 t) (iblk m hO c 3 t) (iblk m hO c 4 t) (j 0) (j 1) (j 2)).trans ?_
  show _ = Cert.Spec.ffnAt (ax m c) (aW1 m c) (ab1 m c) (aW2 m c) (ab2 m c) (acat m c) (W.src (pt (grid0.coords t))) (j 1) (j 2)
  unfold Cert.Spec.ffnAt Cert.Spec.hidden
  simp only [xblk W hO c t, w1blk W hO c t, w2blk W hO c t, b1blk W hO c t, b2blk W hO c t]

/-- EVERY POINT WRITES ITS BLOCK BACK: the next point visits another sample (the walk is injective), so the output's
    block index changes after every point but the last. -/
theorem flush_all (W : Walk m) (hO : Ok m) (t : Fin (cfgM m hO).N) : ((cfgM m hO).win 5).flush t = true := by
  rw [Pipeline.Window.flush_eq_flushOf]
  unfold Pipeline.Window.flushOf
  have hN : (cfgM m hO).N = 128 := N_0
  have hout : ((cfgM m hO).win 5).isOut = true := rfl
  rw [hout, Bool.true_and, Bool.or_eq_true, decide_eq_true_eq, decide_eq_true_eq]
  by_cases hl : t.val + 1 = grid0.N
  · exact Or.inl hl
  · right
    have hlt : t.val + 1 < grid0.N := by have := t.isLt; have h2 : grid0.N = 128 := N_0; omega
    refine ⟨hlt, fun heq => ?_⟩
    have h0 : cc0_transform_5 Facts₀.k0_off1_inb Facts₀.numel1_S1 (tbl m) (grid0.coords ⟨t.val + 1, hlt⟩) (0 : Fin 3) = cc0_transform_5 Facts₀.k0_off1_inb Facts₀.numel1_S1 (tbl m) (grid0.coords t) (0 : Fin 3) := congrFun heq (0 : Fin 3)
    rw [W.tout, W.tout] at h0
    have h1 : W.src (pt (grid0.coords ⟨t.val + 1, hlt⟩)) = W.src (pt (grid0.coords t)) := Fin.ext h0
    have h2 := congrArg Fin.val (W.inj h1)
    have h3 : ((grid0.coords ⟨t.val + 1, hlt⟩) 0).val = ((grid0.coords t) 0).val := h2
    rw [coords_val, coords_val] at h3
    simp at h3

/-- EVERY ENTRY OF THE RESULT IS WRITTEN: sample `s` is visited at some point (the walk is onto), and that point's block is
    all of sample `s`. -/
theorem cover (W : Walk m) (hO : Ok m) (c : Dev nD) (i : S128x64x1536.Idx) :
    ∃ t : Fin (cfgM m hO).N, ((cfgM m hO).win 5).flush t = true ∧ i ∈ (((cfgM m hO).win 5).blk t).view.set := by
  obtain ⟨b, hb⟩ := W.surj ⟨(i 0).val, (i 0).isLt⟩
  have hN : grid0.N = 128 := N_0
  have hbl : b.val < grid0.N := by rw [hN]; exact b.isLt
  have hpt : pt (grid0.coords ⟨b.val, hbl⟩) = b := Fin.ext (coords_val ⟨b.val, hbl⟩)
  refine ⟨⟨b.val, hbl⟩, flush_all W hO _, ?_⟩
  have ht := W.tout (grid0.coords ⟨b.val, hbl⟩)
  rw [hpt, hb] at ht
  have hmem := (((cfgM m hO).win 5).blk ⟨b.val, hbl⟩).view.emb_mem_set
    (ix3 (0 : Fin 1) (⟨(i 1).val, (i 1).isLt⟩ : Fin 64) (⟨(i 2).val, (i 2).isLt⟩ : Fin 1536) : S1x64x1536.Idx)
  have he : (((cfgM m hO).win 5).blk ⟨b.val, hbl⟩).view.emb
      (ix3 (0 : Fin 1) (⟨(i 1).val, (i 1).isLt⟩ : Fin 64) (⟨(i 2).val, (i 2).isLt⟩ : Fin 1536) : S1x64x1536.Idx) = i := by
    funext a
    apply Fin.ext
    match a with
    | ⟨0, _⟩ =>
      show cc0_transform_5 Facts₀.k0_off1_inb Facts₀.numel1_S1 (tbl m) (grid0.coords ⟨b.val, hbl⟩) (0 : Fin 3) * 1 + 1 * 0 = (i 0).val
      rw [ht]
      show (i 0).val * 1 + 1 * 0 = _
      omega
    | ⟨1, _⟩ =>
      show cc0_transform_5 Facts₀.k0_off1_inb Facts₀.numel1_S1 (tbl m) (grid0.coords ⟨b.val, hbl⟩) (1 : Fin 3) * 64 + 1 * (i 1).val = (i 1).val
      rw [ht]
      show 0 * 64 + 1 * (i 1).val = _
      omega
    | ⟨2, _⟩ =>
      show cc0_transform_5 Facts₀.k0_off1_inb Facts₀.numel1_S1 (tbl m) (grid0.coords ⟨b.val, hbl⟩) (2 : Fin 3) * 1536 + 1 * (i 2).val = (i 2).val
      rw [ht]
      show 0 * 1536 + 1 * (i 2).val = _
      omega
  exact he ▸ hmem

/-- THE RESULT ARRAY after the run is the routed map of the launch arrays. -/
theorem final (W : Walk m) (hO : Ok m) (c : Dev nD) : (dats m hO 0 c).arrAt 5 (cfgM m hO).N = target m c :=
  (dats m hO 0 c).arrAt_eq_of_cover 5 (target m c) (fun t _ => flushed_eq W hO c t) (cover W hO c)

/-- THE RUN, READ: every execution ends with the result array at the routed map and the arguments as launched. -/
theorem run (W : Walk m) (hO : Ok m) : θ_run defs (onTc (τ := τ) (main (F := Ideal))) ⟨m, fun _ => 0, ρ⟩ fun r => ∀ c : Dev nD,
      r.2.mem ((c.tc : Thread nD τ).loc main_v11) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 5).trans (final W hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).1 3).trans (((dats m hO 0 c).arrAt_in 3 rfl _).trans ((A_eq m hO c 3).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hO)

end Cert.KernelIdeal.Whole

end
-- ==== Proof.LibMatGather.lean ====
/-
  A gather of whole matrices read at an index.

  jnp's `table[idx]` of a stack of matrices `table : [N, A, B]` at a vector of matrix numbers lowers to a
  `stablehlo.gather` whose start indices are the column `[n, 1]` of matrix numbers: operand axis 0 is collapsed and is
  the one start-indexed axis, axes 1 and 2 of the result are the two offset axes and carry the whole matrix (slice sizes
  `[1, A, B]`). Result element `(k, p, q)` is then the table's entry `(r, p, q)`, where `r` is the `k`-th matrix number
  read as a signed integer and clamped into `[0, N - 1]`: the gather never reads outside the table, a negative number
  reads matrix 0 and one past the end reads the last matrix.
-/
import Idealize.ShloMosaic.Lib.ValueIdx

noncomputable section

namespace Idealize.ShloMosaic.MatGather

open Idealize.ShloMosaic Idealize.ShloMosaic.ValueIdx

variable {α : Type}

/-- The dimension numbers of a gather of whole matrices from a table `[N, A, B]` by a column `[n, 1]` of matrix numbers
    into `[n, A, B]`; their conditions `wf` are decided on a program's literal shapes. -/
abbrev matDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- THE GATHER READ AT `(k, p, q)`: the table at matrix `idx[k, 0]`, read signed and clamped into `[0, N - 1]`, row `p`
    and column `q`. On the matrix axis the start is the clamped matrix number and nothing is added to it (the axis is
    collapsed and there is no batching axis); on the two other axes the start is zero (they are not start-indexed) and
    the offset is the result's own coordinate on the offset axis in the same position. -/
theorem gather_mats_apply {N A B n w : Nat} (hN : 0 < N)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (k : Fin n) (p : Fin A) (q : Fin B) :
    Host.gather (matDims N A B n wf) x idx (ix3 k p q)
      = x (ix3 ⟨min (idx (ix2 k (0 : Fin 1))).toInt.toNat (N - 1), by omega⟩ p q) := by
  unfold Host.gather
  congr 1
  funext a
  refine Fin.ext ?_
  have h1 : ¬ (1 : Fin 3) ∈ ([0] : List (Fin 3)) := by decide
  have h2 : ¬ (2 : Fin 3) ∈ ([0] : List (Fin 3)) := by decide
  match a with
  | ⟨0, _⟩ =>
    show (matDims N A B n wf).start (ix3 k p q) idx 0 + (matDims N A B n wf).batchCoord (ix3 k p q) 0
        + (matDims N A B n wf).offCoord (ix3 k p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (matDims N A B n wf).startIndexMap from List.mem_singleton.mpr rfl)]
    have hsi : (matDims N A B n wf).siIdx (ix3 k p q) ⟨List.idxOf (0 : Fin 3) (matDims N A B n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (matDims N A B n wf).start (ix3 k p q) idx 1 + (matDims N A B n wf).batchCoord (ix3 k p q) 1
        + (matDims N A B n wf).offCoord (ix3 k p q) 1 = p.val
    rw [GatherDims.batchCoord_eq_zero _ _ _ List.not_mem_nil]
    unfold GatherDims.start
    rw [dif_neg (show ¬ (1 : Fin 3) ∈ (matDims N A B n wf).startIndexMap from h1)]
    unfold GatherDims.offCoord
    rw [dif_pos ((GatherDims.mem_sKept _ _).mpr ⟨h1, List.not_mem_nil⟩), Nat.zero_add]
    rfl
  | ⟨2, _⟩ =>
    show (matDims N A B n wf).start (ix3 k p q) idx 2 + (matDims N A B n wf).batchCoord (ix3 k p q) 2
        + (matDims N A B n wf).offCoord (ix3 k p q) 2 = q.val
    rw [GatherDims.batchCoord_eq_zero _ _ _ List.not_mem_nil]
    unfold GatherDims.start
    rw [dif_neg (show ¬ (2 : Fin 3) ∈ (matDims N A B n wf).startIndexMap from h2)]
    unfold GatherDims.offCoord
    rw [dif_pos ((GatherDims.mem_sKept _ _).mpr ⟨h2, List.not_mem_nil⟩), Nat.zero_add]
    rfl

end Idealize.ShloMosaic.MatGather

end
-- ==== Proof.LibRowGather.lean ====
/-
  A row gather read at an index.

  jnp's `table[idx]` of a matrix `table : [N, C]` at a vector of row numbers lowers to a `stablehlo.gather` whose
  start indices are the column `[n, 1]` of row numbers: operand axis 0 is collapsed and is the one start-indexed axis,
  axis 1 of the result is the one offset axis and carries the whole row (slice sizes `[1, C]`). Result element
  `(k, q)` is then the table's entry `(r, q)`, where `r` is the `k`-th row number read as a signed integer and
  clamped into `[0, N - 1]`: a row gather never reads outside the table, a negative row number reads row 0 and one
  past the end reads the last row.
-/
import Idealize.ShloMosaic.Lib.ValueIdx

noncomputable section

namespace Idealize.ShloMosaic.RowGather

open Idealize.ShloMosaic Idealize.ShloMosaic.ValueIdx

variable {α : Type}

/-- The dimension numbers of a row gather from a table `[N, C]` by a column `[n, 1]` of row numbers into `[n, C]`; their
    conditions `wf` are decided on a program's literal shapes. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, q)`: the table at row `idx[k, 0]`, read signed and clamped into `[0, N - 1]`, and
    column `q`. On the row axis the start is the clamped row number and nothing is added to it (the axis is collapsed and
    there is no batching axis); on the column axis the start is zero (the axis is not start-indexed) and the offset is
    the result's own column. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (k : Fin n) (q : Fin C) :
    Host.gather (rowDims N C n wf) x idx (ix2 k q)
      = x (ix2 ⟨min (idx (ix2 k (0 : Fin 1))).toInt.toNat (N - 1), by omega⟩ q) := by
  unfold Host.gather
  congr 1
  funext a
  refine Fin.ext ?_
  match a with
  | ⟨0, _⟩ =>
    show (rowDims N C n wf).start (ix2 k q) idx 0 + (rowDims N C n wf).batchCoord (ix2 k q) 0
        + (rowDims N C n wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    have hsi : (rowDims N C n wf).siIdx (ix2 k q) ⟨List.idxOf (0 : Fin 2) (rowDims N C n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowDims N C n wf).start (ix2 k q) idx 1 + (rowDims N C n wf).batchCoord (ix2 k q) 1
        + (rowDims N C n wf).offCoord (ix2 k q) 1 = q.val
    rw [GatherDims.batchCoord_eq_zero _ _ _ List.not_mem_nil]
    unfold GatherDims.start
    have h1 : ¬ (1 : Fin 2) ∈ ([0] : List (Fin 2)) := by decide
    rw [dif_neg (show ¬ (1 : Fin 2) ∈ (rowDims N C n wf).startIndexMap from h1)]
    unfold GatherDims.offCoord
    rw [dif_pos ((GatherDims.mem_sKept _ _).mpr ⟨h1, List.not_mem_nil⟩), Nat.zero_add]
    rfl

end Idealize.ShloMosaic.RowGather

end
-- ==== Proof.RefIsSpec.lean ====
/-
  The reference program computes the category-routed two-layer feed-forward map.

  The reference reads, for every sample, the sample's category word, adds 32 to it when it is negative as a signed
  number, and gathers with the result: the expert's first matrix and first bias, then the expert's second matrix and
  second bias. A gather clamps the matrix or row number into the table. For a category word below 32 none of this
  changes the word: it is nonnegative, so the select keeps it, its signed reading is its unsigned reading, and the
  clamp into [0, 31] leaves it alone. The gathered tables are therefore the expert's own, and the two contractions and
  the two bias additions are, entry by entry, the map of Spec.lean.
-/
import proofs.«403329_j46205258170745_2_alg».proof.Proof.Gen.ReferenceIdeal.Read
import proofs.«403329_j46205258170745_2_alg».proof.Proof.Spec
import proofs.«403329_j46205258170745_2_alg».proof.Proof.LibMatGather
import proofs.«403329_j46205258170745_2_alg».proof.Proof.LibRowGather
import Idealize.ShloMosaic.Lib.StableHlo.Predicate
import Idealize.ShloMosaic.Lib.ValueIdx
import Idealize.ShloMosaic.PureOps.Ideal
import Idealize.ShloMosaic.PureOps.Ideal.Laws

noncomputable section

open scoped BigOperators

namespace Cert.RefSide

open Cert.ReferenceIdeal Cert.ReferenceIdeal.Gen Cert.ReferenceIdeal.Read
open Idealize.ShloMosaic Idealize.ShloMosaic.ValueIdx Idealize.ShloMosaic.StableHlo

/-! ## The category word survives the wrap-around of negative numbers -/

/-- A word below 32 is not negative as a signed number, so "add 32 if negative" keeps it. -/
theorem wrap_keeps (c : BitVec 32) (h : c.toNat < 32) :
    Scalar.select (IntOp.cmpi .slt c 0#32) (IntOp.addi c 32#32) c = c := by
  have hne : ¬ (IntOp.cmpi .slt c 0#32 = 1#1) := by
    rw [Predicate.slt_iff_toNat (a := c) (b := 0#32) (by omega) (by decide)]
    simp
  unfold Scalar.select
  exact if_neg hne

/-- A word below 32, read signed and clamped into [0, 31], is the word read unsigned and capped at 31. -/
theorem clamp_keeps (c : BitVec 32) (h : c.toNat < 32) :
    min c.toInt.toNat (32 - 1) = min c.toNat 31 := by
  rw [Predicate.toInt_eq_toNat_of_lt (a := c) (by omega)]
  simp

section UnderSmallCategories

variable (x5 : (⟨S128, .i32⟩ : BufTy).Contents (Elt Ideal))
  (hcat : ∀ s : Fin 128, (x5 (ix1 s)).toNat < 32)

include hcat

/-- The start index the first matrix gather reads for sample k is the sample's category word. -/
theorem v5_at (k : Fin 128) : val_main_v5 (F := Ideal) x5 (ix2 k (0 : Fin 1)) = x5 (ix1 k) := by
  have e : idx_main_v5 (ix2 k (0 : Fin 1)) = ix1 k := by
    funext a; match a with | ⟨0, _⟩ => rfl
  rw [val_main_v5_apply, e, val_main_v4_apply, val_main_v1_apply, val_main_v3_apply, val_main_v0_apply,
    val_main_c_apply, val_main_v2_apply, val_main_c_0_apply]
  exact wrap_keeps _ (hcat k)

/-- The same for the first bias gather. -/
theorem v13_at (k : Fin 128) : val_main_v13 (F := Ideal) x5 (ix2 k (0 : Fin 1)) = x5 (ix1 k) := by
  have e : idx_main_v13 (ix2 k (0 : Fin 1)) = ix1 k := by
    funext a; match a with | ⟨0, _⟩ => rfl
  rw [val_main_v13_apply, e, val_main_v12_apply, val_main_v9_apply, val_main_v11_apply, val_main_v8_apply,
    val_main_c_1_apply, val_main_v10_apply, val_main_c_2_apply]
  exact wrap_keeps _ (hcat k)

/-- The same for the second matrix gather. -/
theorem v24_at (k : Fin 128) : val_main_v24 (F := Ideal) x5 (ix2 k (0 : Fin 1)) = x5 (ix1 k) := by
  have e : idx_main_v24 (ix2 k (0 : Fin 1)) = ix1 k := by
    funext a; match a with | ⟨0, _⟩ => rfl
  rw [val_main_v24_apply, e, val_main_v23_apply, val_main_v20_apply, val_main_v22_apply, val_main_v19_apply,
    val_main_c_3_apply, val_main_v21_apply, val_main_c_4_apply]
  exact wrap_keeps _ (hcat k)

/-- The same for the second bias gather. -/
theorem v32_at (k : Fin 128) : val_main_v32 (F := Ideal) x5 (ix2 k (0 : Fin 1)) = x5 (ix1 k) := by
  have e : idx_main_v32 (ix2 k (0 : Fin 1)) = ix1 k := by
    funext a; match a with | ⟨0, _⟩ => rfl
  rw [val_main_v32_apply, e, val_main_v31_apply, val_main_v28_apply, val_main_v30_apply, val_main_v27_apply,
    val_main_c_5_apply, val_main_v29_apply, val_main_c_6_apply]
  exact wrap_keeps _ (hcat k)

/-- A start index that is the category word picks the expert's position in a table of 32. -/
theorem pick_eq (w : BitVec 32) (k : Fin 128) (hw : w = x5 (ix1 k)) (hlt : min w.toInt.toNat (32 - 1) < 32) :
    (⟨min w.toInt.toNat (32 - 1), hlt⟩ : Fin 32) = Spec.catOf x5 k := by
  subst hw
  apply Fin.ext
  show min _ (32 - 1) = min _ 31
  exact clamp_keeps _ (hcat k)

/-! ## The four gathers read the expert's own tables -/

/-- The gathered first matrices: sample k's is its expert's. -/
theorem v6_at (x1 : (⟨S32x1024x1024, .f32⟩ : BufTy).Contents (Elt Ideal)) (k : Fin 128) (p q : Fin 1024) :
    val_main_v6 (F := Ideal) x1 x5 (ix3 k p q) = x1 (ix3 (Spec.catOf x5 k) p q) := by
  unfold val_main_v6
  have hd : gather_S32x1024x1024_S128x1_S128x1024x1024_12_0_n_n_0_1_110241024
      = MatGather.matDims 32 1024 1024 128
          Facts₀.gather_S32x1024x1024_S128x1_S128x1024x1024_12_0_n_n_0_1_110241024_wf := rfl
  rw [hd, MatGather.gather_mats_apply (N := 32) (by decide), pick_eq x5 hcat _ k (v5_at x5 hcat k)]

/-- The gathered first biases. -/
theorem v14_at (x2 : (⟨S32x1024, .f32⟩ : BufTy).Contents (Elt Ideal)) (k : Fin 128) (q : Fin 1024) :
    val_main_v14 (F := Ideal) x2 x5 (ix2 k q) = x2 (ix2 (Spec.catOf x5 k) q) := by
  unfold val_main_v14
  have hd : gather_S32x1024_S128x1_S128x1024_1_0_n_n_0_1_11024
      = RowGather.rowDims 32 1024 128 Facts₀.gather_S32x1024_S128x1_S128x1024_1_0_n_n_0_1_11024_wf := rfl
  rw [hd, RowGather.gather_rows_apply (N := 32) (by decide), pick_eq x5 hcat _ k (v13_at x5 hcat k)]

/-- The gathered second matrices. -/
theorem v25_at (x3 : (⟨S32x1024x1536, .f32⟩ : BufTy).Contents (Elt Ideal)) (k : Fin 128) (p : Fin 1024) (q : Fin 1536) :
    val_main_v25 (F := Ideal) x3 x5 (ix3 k p q) = x3 (ix3 (Spec.catOf x5 k) p q) := by
  unfold val_main_v25
  have hd : gather_S32x1024x1536_S128x1_S128x1024x1536_12_0_n_n_0_1_110241536
      = MatGather.matDims 32 1024 1536 128
          Facts₀.gather_S32x1024x1536_S128x1_S128x1024x1536_12_0_n_n_0_1_110241536_wf := rfl
  rw [hd, MatGather.gather_mats_apply (N := 32) (by decide), pick_eq x5 hcat _ k (v24_at x5 hcat k)]

/-- The gathered second biases. -/
theorem v33_at (x4 : (⟨S32x1536, .f32⟩ : BufTy).Contents (Elt Ideal)) (k : Fin 128) (q : Fin 1536) :
    val_main_v33 (F := Ideal) x4 x5 (ix2 k q) = x4 (ix2 (Spec.catOf x5 k) q) := by
  unfold val_main_v33
  have hd : gather_S32x1536_S128x1_S128x1536_1_0_n_n_0_1_11536
      = RowGather.rowDims 32 1536 128 Facts₀.gather_S32x1536_S128x1_S128x1536_1_0_n_n_0_1_11536_wf := rfl
  rw [hd, RowGather.gather_rows_apply (N := 32) (by decide), pick_eq x5 hcat _ k (v32_at x5 hcat k)]

/-! ## The two layers, entry by entry -/

/-- The reference's activation after the first layer is the hidden activation of the map. -/
theorem v18_at (x0 : (⟨S128x64x1024, .f32⟩ : BufTy).Contents (Elt Ideal))
    (x1 : (⟨S32x1024x1024, .f32⟩ : BufTy).Contents (Elt Ideal))
    (x2 : (⟨S32x1024, .f32⟩ : BufTy).Contents (Elt Ideal)) (s : Fin 128) (t : Fin 64) (h : Fin 1024) :
    val_main_v18 (F := Ideal) x0 x1 x2 x5 (ix3 s t h) = Spec.hidden x0 x1 x2 x5 s t h := by
  have eb : idx_main_v15 (idx_main_v16 (ix3 s t h)) = ix2 s h := by
    funext a; match a with | ⟨0, _⟩ => rfl | ⟨1, _⟩ => rfl
  have hsum : (∑ k : Fin 1024, x0 (lidx_main_v7 (ix3 s t h) k)
        * val_main_v6 (F := Ideal) x1 x5 (ridx_main_v7 (ix3 s t h) k))
      = ∑ d : Fin 1024, x0 (ix3 s t d) * x1 (ix3 (Spec.catOf x5 s) d h) := by
    refine Finset.sum_congr rfl fun d _ => ?_
    have el : lidx_main_v7 (ix3 s t h) d = ix3 s t d := by
      funext a; match a with | ⟨0, _⟩ => rfl | ⟨1, _⟩ => rfl | ⟨2, _⟩ => rfl
    have er : ridx_main_v7 (ix3 s t h) d = ix3 s d h := by
      funext a; match a with | ⟨0, _⟩ => rfl | ⟨1, _⟩ => rfl | ⟨2, _⟩ => rfl
    rw [el, er, v6_at x5 hcat x1 s d h]
  rw [val_main_v18_apply, val_main_v17_apply, val_main_v7_apply, hsum, val_main_v16_apply, val_main_v15_apply, eb,
    v14_at x5 hcat x2 s h, val_main_call0_v0_apply, val_main_call0_cst_apply]
  simp only [Ideal.addf_def, Ideal.maximumf_def, Ideal.ofBits_def, Ideal.ofBits_zero_f32]
  rfl

/-- The reference's output entry is the map's output entry. -/
theorem v36_at (x0 : (⟨S128x64x1024, .f32⟩ : BufTy).Contents (Elt Ideal))
    (x1 : (⟨S32x1024x1024, .f32⟩ : BufTy).Contents (Elt Ideal))
    (x2 : (⟨S32x1024, .f32⟩ : BufTy).Contents (Elt Ideal))
    (x3 : (⟨S32x1024x1536, .f32⟩ : BufTy).Contents (Elt Ideal))
    (x4 : (⟨S32x1536, .f32⟩ : BufTy).Contents (Elt Ideal)) (s : Fin 128) (t : Fin 64) (o : Fin 1536) :
    val_main_v36 (F := Ideal) x0 x1 x2 x3 x4 x5 (ix3 s t o) = Spec.ffnAt x0 x1 x2 x3 x4 x5 s t o := by
  have eb : idx_main_v34 (idx_main_v35 (ix3 s t o)) = ix2 s o := by
    funext a; match a with | ⟨0, _⟩ => rfl | ⟨1, _⟩ => rfl
  have hsum : (∑ k : Fin 1024, val_main_v18 (F := Ideal) x0 x1 x2 x5 (lidx_main_v26 (ix3 s t o) k)
        * val_main_v25 (F := Ideal) x3 x5 (ridx_main_v26 (ix3 s t o) k))
      = ∑ h : Fin 1024, Spec.hidden x0 x1 x2 x5 s t h * x3 (ix3 (Spec.catOf x5 s) h o) := by
    refine Finset.sum_congr rfl fun h _ => ?_
    have el : lidx_main_v26 (ix3 s t o) h = ix3 s t h := by
      funext a; match a with | ⟨0, _⟩ => rfl | ⟨1, _⟩ => rfl | ⟨2, _⟩ => rfl
    have er : ridx_main_v26 (ix3 s t o) h = ix3 s h o := by
      funext a; match a with | ⟨0, _⟩ => rfl | ⟨1, _⟩ => rfl | ⟨2, _⟩ => rfl
    rw [el, er, v18_at x5 hcat x0 x1 x2 s t h, v25_at x5 hcat x3 s h o]
  rw [val_main_v36_apply, val_main_v26_apply, hsum, val_main_v35_apply, val_main_v34_apply, eb,
    v33_at x5 hcat x4 s o]
  simp only [Ideal.addf_def]
  rfl

end UnderSmallCategories

/-- THE REFERENCE SIDE: under categories below 32 the reference's output is the category-routed feed-forward map. -/
theorem val_eq_ffn (x0 : (⟨S128x64x1024, .f32⟩ : BufTy).Contents (Elt Ideal))
    (x1 : (⟨S32x1024x1024, .f32⟩ : BufTy).Contents (Elt Ideal))
    (x2 : (⟨S32x1024, .f32⟩ : BufTy).Contents (Elt Ideal))
    (x3 : (⟨S32x1024x1536, .f32⟩ : BufTy).Contents (Elt Ideal))
    (x4 : (⟨S32x1536, .f32⟩ : BufTy).Contents (Elt Ideal))
    (x5 : (⟨S128, .i32⟩ : BufTy).Contents (Elt Ideal))
    (hcat : ∀ s : Fin 128, (x5 (ValueIdx.ix1 s)).toNat < 32) :
    Cert.ReferenceIdeal.Read.val_main_v36 (F := Ideal) x0 x1 x2 x3 x4 x5 = Cert.Spec.ffn x0 x1 x2 x3 x4 x5 := by
  funext i
  rw [eq_ix3 i]
  exact v36_at x5 hcat x0 x1 x2 x3 x4 (i 0) (i 1) (i 2)

end Cert.RefSide

end
-- ==== Proof.lean ====
/-
  The routed two-layer feed-forward kernel against its reference.

  The kernel clamps each sample's category into [0, 31], walks the 128 samples in category-sorted order (an argsort; the
  order and the sorted categories are the two prefetched tables its block index maps read), and at each step computes one
  sample's relu (x · W1 + b1) · W2 + b2 with its category's expert, writing that sample's output block. The reference
  gathers each sample's expert by its category and does the same arithmetic for all samples at once.

  The statement carries, besides finiteness of the float inputs, that every category is in [0, 32): outside it the
  reference itself indexes out of range (a negative category wraps around; the kernel clamps instead). Under it:
  the clamp is the identity, the argsort is a permutation of the samples, so every sample's block is written exactly by
  the step that visits it, with the expert of ITS category; the products on the matrix unit into a zero accumulator and
  the reference's batched products are the same sums over the contracted coordinate; narrowing to bf16 is the identity
  on exact values. No law of the extended reals beyond that is used, so finiteness is never opened.

  Frames: the kernel's (at both instances) hold once every table-indexed block lies inside its array, which is what the
  category range and the permutation give; the reference's is its run with the result dropped. Nothing was rewritten by
  the ideal pass, so there is nothing to preserve.
-/
import proofs.«403329_j46205258170745_2_alg».proof.Defs
import proofs.«403329_j46205258170745_2_alg».proof.Proof.Gen.Kernel
import proofs.«403329_j46205258170745_2_alg».proof.Proof.Gen.Kernel.Skeleton
import proofs.«403329_j46205258170745_2_alg».proof.Proof.Gen.Kernel.Launch
import proofs.«403329_j46205258170745_2_alg».proof.Proof.Gen.Kernel.Points
import proofs.«403329_j46205258170745_2_alg».proof.Proof.Gen.Kernel.Frame
import proofs.«403329_j46205258170745_2_alg».proof.Proof.Gen.KernelIdeal
import proofs.«403329_j46205258170745_2_alg».proof.Proof.Gen.KernelIdeal.Skeleton
import proofs.«403329_j46205258170745_2_alg».proof.Proof.Gen.KernelIdeal.Launch
import proofs.«403329_j46205258170745_2_alg».proof.Proof.Gen.KernelIdeal.Points
import proofs.«403329_j46205258170745_2_alg».proof.Proof.Gen.KernelIdeal.Frame
import proofs.«403329_j46205258170745_2_alg».proof.Proof.Gen.ReferenceIdeal
import proofs.«403329_j46205258170745_2_alg».proof.Proof.Gen.Pre_finite_inputs
import proofs.«403329_j46205258170745_2_alg».proof.Proof.Gen.ReferenceIdeal.Run
import proofs.«403329_j46205258170745_2_alg».proof.Proof.Gen.ReferenceIdeal.Read
import proofs.«403329_j46205258170745_2_alg».proof.Proof.PreRange
import proofs.«403329_j46205258170745_2_alg».proof.Proof.TablesIdeal
import proofs.«403329_j46205258170745_2_alg».proof.Proof.TablesBits
import proofs.«403329_j46205258170745_2_alg».proof.Proof.KernelWhole
import proofs.«403329_j46205258170745_2_alg».proof.Proof.RefIsSpec
import Idealize.ShloMosaic.Adequacy
import Idealize.ShloMosaic.Init

noncomputable section

namespace Cert.Proof

open Idealize.ShloMosaic Idealize.ShloMosaic.ValueIdx Idealize.SL.Sem

/-- The word-level kernel's tables are admissible: its categories are in range by the precondition. -/
theorem range_bits [Cert.Pre_finite_inputs.Facts] (m : (ℓ : Loc Cert.Kernel.nD Cert.Kernel.τ Cert.Kernel.sig) → Buf (Elt Bits) ℓ)
    (h : Cert.Pre_Kernel m) : Cert.Kernel.Tables.InRange m :=
  fun s => Cert.PreRange.cat_lt _ _ _ _ _ _ (h 0) s

/-- The same of the idealized kernel. -/
theorem range_ideal [Cert.Pre_finite_inputs.Facts] (m : (ℓ : Loc Cert.KernelIdeal.nD Cert.KernelIdeal.τ Cert.KernelIdeal.sig) → Buf (Elt Ideal) ℓ)
    (h : Cert.Pre_KernelIdeal m) : Cert.KernelIdeal.Tables.InRange m :=
  fun s => Cert.PreRange.cat_lt _ _ _ _ _ _ (h 0) s

/-- The sorted walk of the idealized kernel, from its tables: the argsort's bijection and the six block index maps. -/
def walk [Cert.Pre_finite_inputs.Facts] (m : (ℓ : Loc Cert.KernelIdeal.nD Cert.KernelIdeal.τ Cert.KernelIdeal.sig) → Buf (Elt Ideal) ℓ)
    (h : Cert.KernelIdeal.Tables.InRange m) : Cert.KernelIdeal.Whole.Walk m where
  src := Cert.KernelIdeal.Tables.src m
  inj := Cert.KernelIdeal.Tables.src_injective m
  surj := Cert.KernelIdeal.Tables.src_surjective m
  range := fun c s => by obtain rfl : c = 0 := Subsingleton.elim _ _; exact h s
  tx := Cert.KernelIdeal.Tables.transform_x m
  tout := Cert.KernelIdeal.Tables.transform_out m
  tw1 := fun c i => by obtain rfl : c = 0 := Subsingleton.elim _ _; exact Cert.KernelIdeal.Tables.transform_w1 m h i
  tb1 := fun c i => by obtain rfl : c = 0 := Subsingleton.elim _ _; exact Cert.KernelIdeal.Tables.transform_b1 m h i
  tw2 := fun c i => by obtain rfl : c = 0 := Subsingleton.elim _ _; exact Cert.KernelIdeal.Tables.transform_w2 m h i
  tb2 := fun c i => by obtain rfl : c = 0 := Subsingleton.elim _ _; exact Cert.KernelIdeal.Tables.transform_b2 m h i

theorem claim : Cert.Claim := ⟨Cert.Kernel.Gen.facts, Cert.KernelIdeal.Gen.facts, Cert.ReferenceIdeal.Gen.facts, Cert.Pre_finite_inputs.Gen.facts,
  fun m ρ h => Cert.Kernel.Gen.frame m ρ (Cert.Kernel.Tables.ok m (range_bits m h)),
  fun m ρ h => Cert.KernelIdeal.Gen.frame m ρ (Cert.KernelIdeal.Tables.ok m (range_ideal m h)),
  fun m ρ _ => (θ_run Cert.ReferenceIdeal.defs _ _).mono (fun _ h c => (h c).2) (Cert.ReferenceIdeal.Value.run (F := Ideal) m ρ),
  trivial,
  by
    intro m ρ m' ρ' hpre hagree
    have hR := range_ideal m hpre
    refine ⟨fun c => Cert.KernelIdeal.Whole.target m c,
      Cert.KernelIdeal.Whole.run ρ (walk m hR) (Cert.KernelIdeal.Tables.ok m hR), ?_⟩
    refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.ReferenceIdeal.Read.val_main_v36_eq _ _ _ _ _ _).trans
      (Cert.RefSide.val_eq_ffn _ _ _ _ _ _ ((walk m hR).range c))⟩

end Cert.Proof

end
